-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576 : Shape := ⟨1, ![1048576]⟩
abbrev S1000000x8 : Shape := ⟨2, ![1000000, 8]⟩
abbrev S16x32 : Shape := ⟨2, ![16, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S16x1 : Shape := ⟨2, ![16, 1]⟩
abbrev S1 : Shape := ⟨1, ![1]⟩
abbrev S_ : Shape := ⟨0, ![]⟩

class Facts : Prop where
  bcast_S_S1000000x8 : S_.BroadcastsInDim S1000000x8 (![] : Fin 0 → Fin S1000000x8.rank)
  reducesTo_S1000000x8_S_d0_1 : S1000000x8.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S16x1 .f32) (main_v50 : FVec F S16x1 .f32) : IVec S_ 1 :=
  let main_v51 : IVec S16x1 1 := cmpf .olt main_v49 main_v50
  let main_c_19 : IVec S_ 1 := constantI S_ 1 1#1
  let main_v52 : IVec S_ 1 := (fun x v => Host.reduce IntOp.andi x v reducesTo_S16x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S16 .f32) (main_arg10 : FVec F S16x8 .f32) (main_arg11 : FVec F S8 .f32) (main_arg12 : FVec F S16x1 .f32) (main_arg13 : FVec F S1 .f32) (main_v33 : IVec S_ 1) : IVec S_ 1 :=
  let main_v34 : FVec F S16 .f32 := Host.absf main_arg9
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x8 .f32 := Host.absf main_arg10
  let main_cst_14 : FVec F S_ .f32 := constant S_ .f32 0x7F800000#32
  let main_v40 : FVec F S16x8 .f32 := broadcastInDim S16x8 ![] bcast_S_S16x8 main_cst_14
  let main_v41 : IVec S16x8 1 := cmpf .olt main_v39 main_v40
  let main_c_15 : IVec S_ 1 := constantI S_ 1 1#1
  let main_v42 : IVec S_ 1 := (fun x v => Host.reduce IntOp.andi x v reducesTo_S16x8_S_d0_1 h_S_) main_v41 main_c_15
  let main_v43 : IVec S_ 1 := andi main_v38 main_v42
  let main_v44 : FVec F S8 .f32 := Host.absf main_arg11
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  let main_v49 : FVec F S16x1 .f32 := Host.absf main_arg12
  let main_cst_18 : FVec F S_ .f32 := constant S_ .f32 0x7F800000#32
  let main_v50 : FVec F S16x1 .f32 := broadcastInDim S16x1 ![] bcast_S_S16x1 main_cst_18
  fn_part3 (F := F) main_arg13 main_v48 main_v49 main_v50

def fn_part1 {F : FTy → Type} [FloatOps F] (main_arg6 : FVec F S16x32 .f32) (main_arg7 : FVec F S32 .f32) (main_arg8 : FVec F S32x16 .f32) (main_arg9 : FVec F S16 .f32) (main_arg10 : FVec F S16x8 .f32) (main_arg11 : FVec F S8 .f32) (main_arg12 : FVec F S16x1 .f32) (main_arg13 : FVec F S1 .f32) (main_v13 : IVec S_ 1) (main_v16 : IVec S1000000x8 1) : IVec S_ 1 :=
  let main_c_5 : IVec S_ 1 := constantI S_ 1 1#1
  let main_v17 : IVec S_ 1 := (fun x v => Host.reduce IntOp.andi x v reducesTo_S1000000x8_S_d0_1 h_S_) main_v16 main_c_5
  let main_v18 : IVec S_ 1 := andi main_v13 main_v17
  let main_v19 : FVec F S16x32 .f32 := Host.absf main_arg6
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x16 .f32 := Host.absf main_arg8
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : IVec S1048576 32) (main_arg1 : IVec S1048576 32) (main_arg2 : FVec F S1000000x8 .f32) (main_arg3 : FVec F S1000000x8 .f32) (main_arg4 : FVec F S1000000x8 .f32) (main_arg5 : FVec F S1000000x8 .f32) (main_arg6 : FVec F S16x32 .f32) (main_arg7 : FVec F S32 .f32) (main_arg8 : FVec F S32x16 .f32) (main_arg9 : FVec F S16 .f32) (main_arg10 : FVec F S16x8 .f32) (main_arg11 : FVec F S8 .f32) (main_arg12 : FVec F S16x1 .f32) (main_arg13 : FVec F S1 .f32) : IVec S_ 1 :=
  let main_v0 : FVec F S1000000x8 .f32 := Host.absf main_arg2
  let main_cst : FVec F S_ .f32 := constant S_ .f32 0x7F800000#32
  let main_v1 : FVec F S1000000x8 .f32 := broadcastInDim S1000000x8 ![] bcast_S_S1000000x8 main_cst
  let main_v2 : IVec S1000000x8 1 := cmpf .olt main_v0 main_v1
  let main_c : IVec S_ 1 := constantI S_ 1 1#1
  let main_v3 : IVec S_ 1 := (fun x v => Host.reduce IntOp.andi x v reducesTo_S1000000x8_S_d0_1 h_S_) main_v2 main_c
  let main_v4 : FVec F S1000000x8 .f32 := Host.absf main_arg3
  let main_cst_0 : FVec F S_ .f32 := constant S_ .f32 0x7F800000#32
  let main_v5 : FVec F S1000000x8 .f32 := broadcastInDim S1000000x8 ![] bcast_S_S1000000x8 main_cst_0
  let main_v6 : IVec S1000000x8 1 := cmpf .olt main_v4 main_v5
  let main_c_1 : IVec S_ 1 := constantI S_ 1 1#1
  let main_v7 : IVec S_ 1 := (fun x v => Host.reduce IntOp.andi x v reducesTo_S1000000x8_S_d0_1 h_S_) main_v6 main_c_1
  let main_v8 : IVec S_ 1 := andi main_v3 main_v7
  let main_v9 : FVec F S1000000x8 .f32 := Host.absf main_arg4
  let main_cst_2 : FVec F S_ .f32 := constant S_ .f32 0x7F800000#32
  let main_v10 : FVec F S1000000x8 .f32 := broadcastInDim S1000000x8 ![] bcast_S_S1000000x8 main_cst_2
  let main_v11 : IVec S1000000x8 1 := cmpf .olt main_v9 main_v10
  let main_c_3 : IVec S_ 1 := constantI S_ 1 1#1
  let main_v12 : IVec S_ 1 := (fun x v => Host.reduce IntOp.andi x v reducesTo_S1000000x8_S_d0_1 h_S_) main_v11 main_c_3
  let main_v13 : IVec S_ 1 := andi main_v8 main_v12
  let main_v14 : FVec F S1000000x8 .f32 := Host.absf main_arg5
  let main_cst_4 : FVec F S_ .f32 := constant S_ .f32 0x7F800000#32
  let main_v15 : FVec F S1000000x8 .f32 := broadcastInDim S1000000x8 ![] bcast_S_S1000000x8 main_cst_4
  let main_v16 : IVec S1000000x8 1 := cmpf .olt main_v14 main_v15
  fn_part1 (F := F) main_arg6 main_arg7 main_arg8 main_arg9 main_arg10 main_arg11 main_arg12 main_arg13 main_v13 main_v16
-- ==== Kernel.lean ====
abbrev S1048576 : Shape := ⟨1, ![1048576]⟩
abbrev S1000000x8 : Shape := ⟨2, ![1000000, 8]⟩
abbrev S16x32 : Shape := ⟨2, ![16, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S16x1 : Shape := ⟨2, ![16, 1]⟩
abbrev S1 : Shape := ⟨1, ![1]⟩
abbrev S_ : Shape := ⟨0, ![]⟩
abbrev S1048576x1 : Shape := ⟨2, ![1048576, 1]⟩
abbrev S1048576x8 : Shape := ⟨2, ![1048576, 8]⟩
abbrev S1048576x32 : Shape := ⟨2, ![1048576, 32]⟩
abbrev S1x32 : Shape := ⟨2, ![1, 32]⟩
abbrev S1x16 : Shape := ⟨2, ![1, 16]⟩
abbrev S1x8 : Shape := ⟨2, ![1, 8]⟩
abbrev S1x1 : Shape := ⟨2, ![1, 1]⟩
abbrev S8192x32 : Shape := ⟨2, ![8192, 32]⟩
abbrev S8192x1 : Shape := ⟨2, ![8192, 1]⟩
abbrev S8192x16 : Shape := ⟨2, ![8192, 16]⟩
abbrev S8192x8 : Shape := ⟨2, ![8192, 8]⟩

abbrev nBuf : Space → Nat
  | .hbm => 56
  | .vmem => 12
  | .smem => 0
  | _ => 0

abbrev bufTy : (tb : Table) → Fin (tcTables nBuf tb) → BufTy
  | .hbm, ⟨0, _⟩ => ⟨S1048576, .i32⟩
  | .hbm, ⟨1, _⟩ => ⟨S1048576, .i32⟩
  | .hbm, ⟨2, _⟩ => ⟨S1000000x8, .f32⟩
  | .hbm, ⟨3, _⟩ => ⟨S1000000x8, .f32⟩
  | .hbm, ⟨4, _⟩ => ⟨S1000000x8, .f32⟩
  | .hbm, ⟨5, _⟩ => ⟨S1000000x8, .f32⟩
  | .hbm, ⟨6, _⟩ => ⟨S16x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S16x8, .f32⟩
  | .hbm, ⟨11, _⟩ => ⟨S8, .f32⟩
  | .hbm, ⟨12, _⟩ => ⟨S16x1, .f32⟩
  | .hbm, ⟨13, _⟩ => ⟨S1, .f32⟩
  | .hbm, ⟨14, _⟩ => ⟨S_, .i32⟩
  | .hbm, ⟨15, _⟩ => ⟨S1048576, .i32⟩
  | .hbm, ⟨16, _⟩ => ⟨S1048576, .i1⟩
  | .hbm, ⟨17, _⟩ => ⟨S_, .i32⟩
  | .hbm, ⟨18, _⟩ => ⟨S1048576, .i32⟩
  | .hbm, ⟨19, _⟩ => ⟨S1048576, .i32⟩
  | .hbm, ⟨20, _⟩ => ⟨S1048576, .i32⟩
  | .hbm, ⟨21, _⟩ => ⟨S1048576x1, .i32⟩
  | .hbm, ⟨22, _⟩ => ⟨S1048576x8, .f32⟩
  | .hbm, ⟨23, _⟩ => ⟨S_, .i32⟩
  | .hbm, ⟨24, _⟩ => ⟨S1048576, .i32⟩
  | .hbm, ⟨25, _⟩ => ⟨S1048576, .i1⟩
  | .hbm, ⟨26, _⟩ => ⟨S_, .i32⟩
  | .hbm, ⟨27, _⟩ => ⟨S1048576, .i32⟩
  | .hbm, ⟨28, _⟩ => ⟨S1048576, .i32⟩
  | .hbm, ⟨29, _⟩ => ⟨S1048576, .i32⟩
  | .hbm, ⟨30, _⟩ => ⟨S1048576x1, .i32⟩
  | .hbm, ⟨31, _⟩ => ⟨S1048576x8, .f32⟩
  | .hbm, ⟨32, _⟩ => ⟨S_, .i32⟩
  | .hbm, ⟨33, _⟩ => ⟨S1048576, .i32⟩
  | .hbm, ⟨34, _⟩ => ⟨S1048576, .i1⟩
  | .hbm, ⟨35, _⟩ => ⟨S_, .i32⟩
  | .hbm, ⟨36, _⟩ => ⟨S1048576, .i32⟩
  | .hbm, ⟨37, _⟩ => ⟨S1048576, .i32⟩
  | .hbm, ⟨38, _⟩ => ⟨S1048576, .i32⟩
  | .hbm, ⟨39, _⟩ => ⟨S1048576x1, .i32⟩
  | .hbm, ⟨40, _⟩ => ⟨S1048576x8, .f32⟩
  | .hbm, ⟨41, _⟩ => ⟨S_, .i32⟩
  | .hbm, ⟨42, _⟩ => ⟨S1048576, .i32⟩
  | .hbm, ⟨43, _⟩ => ⟨S1048576, .i1⟩
  | .hbm, ⟨44, _⟩ => ⟨S_, .i32⟩
  | .hbm, ⟨45, _⟩ => ⟨S1048576, .i32⟩
  | .hbm, ⟨46, _⟩ => ⟨S1048576, .i32⟩
  | .hbm, ⟨47, _⟩ => ⟨S1048576, .i32⟩
  | .hbm, ⟨48, _⟩ => ⟨S1048576x1, .i32⟩
  | .hbm, ⟨49, _⟩ => ⟨S1048576x8, .f32⟩
  | .hbm, ⟨50, _⟩ => ⟨S1048576x32, .f32⟩
  | .hbm, ⟨51, _⟩ => ⟨S1x32, .f32⟩
  | .hbm, ⟨52, _⟩ => ⟨S1x16, .f32⟩
  | .hbm, ⟨53, _⟩ => ⟨S1x8, .f32⟩
  | .hbm, ⟨54, _⟩ => ⟨S1x1, .f32⟩
  | .hbm, ⟨55, _⟩ => ⟨S1048576x1, .f32⟩
  | .local _ .vmem, ⟨0, _⟩ => ⟨S8192x32, .f32⟩
  | .local _ .vmem, ⟨1, _⟩ => ⟨S8192x32, .f32⟩
  | .local _ .vmem, ⟨2, _⟩ => ⟨S16x32, .f32⟩
  | .local _ .vmem, ⟨3, _⟩ => ⟨S1x32, .f32⟩
  | .local _ .vmem, ⟨4, _⟩ => ⟨S32x16, .f32⟩
  | .local _ .vmem, ⟨5, _⟩ => ⟨S1x16, .f32⟩
  | .local _ .vmem, ⟨6, _⟩ => ⟨S16x8, .f32⟩
  | .local _ .vmem, ⟨7, _⟩ => ⟨S1x8, .f32⟩
  | .local _ .vmem, ⟨8, _⟩ => ⟨S16x1, .f32⟩
  | .local _ .vmem, ⟨9, _⟩ => ⟨S1x1, .f32⟩
  | .local _ .vmem, ⟨10, _⟩ => ⟨S8192x1, .f32⟩
  | .local _ .vmem, ⟨11, _⟩ => ⟨S8192x1, .f32⟩
  | _, _ => ⟨S1048576, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8192x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x8_S1048576x8_S1048576x8_S1048576x8_S1048576x32_d1 : Shape.Concatenates [S1048576x8, S1048576x8, S1048576x8, S1048576x8] S1048576x32 1
  shapeCasts_S32_S1x32 : S32.ShapeCasts S1x32
  shapeCasts_S16_S1x16 : S16.ShapeCasts S1x16
  shapeCasts_S8_S1x8 : S8.ShapeCasts S1x8
  shapeCasts_S1_S1x1 : S1.ShapeCasts S1x1
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  slices_S8192x32_o0_0_S8192x16 : S8192x32.Slices ![0, 0] S8192x16
  slices_S8192x32_o0_16_S8192x8 : S8192x32.Slices ![0, 16] S8192x8
  slices_S8192x32_o0_24_S8192x8 : S8192x32.Slices ![0, 24] S8192x8
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8192x32 : S1x32.Broadcasts S8192x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8192x16 : S1x16.Broadcasts S8192x16
  inb_S16x8_S16x8_0_0 : ∀ a, (![0, 0] : Fin 2 → Nat) a + S16x8.size a ≤ S16x8.size a
  h_S16x8 : 0 < S16x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S8192x8 : S1x8.Broadcasts S8192x8
  concatenates_S8192x8_S8192x8_S8192x16_d1 : Shape.Concatenates [S8192x8, S8192x8] S8192x16 1
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  gather_S1000000x8_S1048576x1_S1048576x8_1_0_n_n_0_1_18_wf : GatherDims.WF S1000000x8 S1048576x1 S1048576x8 [1] [0] [] [0] [] 1 ![1, 8]
  dot_S8192x16_S16x32_S8192x32_1_0_0_1_n_n_wf : DotDims.WF S8192x16 S16x32 S8192x32 [1] [0] [0] [1] [] []
  dot_S8192x32_S32x16_S8192x16_1_0_0_1_n_n_wf : DotDims.WF S8192x32 S32x16 S8192x16 [1] [0] [0] [1] [] []
  dot_S8192x16_S16x8_S8192x8_1_0_0_1_n_n_wf : DotDims.WF S8192x16 S16x8 S8192x8 [1] [0] [0] [1] [] []
  dot_S8192x16_S16x1_S8192x1_1_0_0_1_n_n_wf : DotDims.WF S8192x16 S16x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S1048576x32.size a
  hwx0_0 : ∀ i : grid0.Coords, EltTy.bits .f32 = 32 ∨ (Rect.block (s := S1048576x32) S8192x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x8.size a ≤ S16x8.size a
  hwx0_5 : ∀ i : grid0.Coords, EltTy.bits .f32 = 32 ∨ (Rect.block (s := S16x8) S16x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x1.size a ≤ S16x1.size a
  hwx0_7 : ∀ i : grid0.Coords, EltTy.bits .f32 = 32 ∨ (Rect.block (s := S16x1) S16x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8192x1.size a ≤ S1048576x1.size a
  hwx0_9 : ∀ i : grid0.Coords, EltTy.bits .f32 = 32 ∨ (Rect.block (s := S1048576x1) S8192x1.size (cc0_transform_9 i) (hinb0_9 i)).WholeWords (EltTy.packing .f32)

variable [Facts₀]

def gather_S1000000x8_S1048576x1_S1048576x8_1_0_n_n_0_1_18 : GatherDims S1000000x8 S1048576x1 S1048576x8 where
  offsetDims := [1]
  collapsedSliceDims := [0]
  operandBatchingDims := []
  startIndicesBatchingDims := []
  startIndexMap := [0]
  indexVectorDim := 1
  sliceSizes := ![1, 8]
  wf := gather_S1000000x8_S1048576x1_S1048576x8_1_0_n_n_0_1_18_wf
def dot_S8192x16_S16x32_S8192x32_1_0_0_1_n_n : DotDims S8192x16 S16x32 S8192x32 where
  lhsContracting := [1]
  rhsContracting := [0]
  lhsNonContracting := [0]
  rhsNonContracting := [1]
  lhsBatch := []
  rhsBatch := []
  wf := dot_S8192x16_S16x32_S8192x32_1_0_0_1_n_n_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def dot_S8192x16_S16x8_S8192x8_1_0_0_1_n_n : DotDims S8192x16 S16x8 S8192x8 where
  lhsContracting := [1]
  rhsContracting := [0]
  lhsNonContracting := [0]
  rhsNonContracting := [1]
  lhsBatch := []
  rhsBatch := []
  wf := dot_S8192x16_S16x8_S8192x8_1_0_0_1_n_n_wf
def dot_S8192x16_S16x1_S8192x1_1_0_0_1_n_n : DotDims S8192x16 S16x1 S8192x1 where
  lhsContracting := [1]
  rhsContracting := [0]
  lhsNonContracting := [0]
  rhsNonContracting := [1]
  lhsBatch := []
  rhsBatch := []
  wf := dot_S8192x16_S16x1_S8192x1_1_0_0_1_n_n_wf

abbrev win0_0 : Pipeline.Window sig grid0 :=
  Pipeline.Window.ofSpec (Memref.whole main_v28) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S16x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S16x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v32) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v33) S8192x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1048576 : Shape := ⟨1, ![1048576]⟩
abbrev S1000000x8 : Shape := ⟨2, ![1000000, 8]⟩
abbrev S16x32 : Shape := ⟨2, ![16, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S16x1 : Shape := ⟨2, ![16, 1]⟩
abbrev S1 : Shape := ⟨1, ![1]⟩
abbrev S_ : Shape := ⟨0, ![]⟩
abbrev S1048576x1 : Shape := ⟨2, ![1048576, 1]⟩
abbrev S1048576x8 : Shape := ⟨2, ![1048576, 8]⟩
abbrev S1048576x16 : Shape := ⟨2, ![1048576, 16]⟩
abbrev S1048576x32 : Shape := ⟨2, ![1048576, 32]⟩
abbrev S1x32 : Shape := ⟨2, ![1, 32]⟩
abbrev S1x16 : Shape := ⟨2, ![1, 16]⟩
abbrev S1x8 : Shape := ⟨2, ![1, 8]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S1048576, .i32⟩
  | .hbm, ⟨1, _⟩ => ⟨S1048576, .i32⟩
  | .hbm, ⟨2, _⟩ => ⟨S1000000x8, .f32⟩
  | .hbm, ⟨3, _⟩ => ⟨S1000000x8, .f32⟩
  | .hbm, ⟨4, _⟩ => ⟨S1000000x8, .f32⟩
  | .hbm, ⟨5, _⟩ => ⟨S1000000x8, .f32⟩
  | .hbm, ⟨6, _⟩ => ⟨S16x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S16x8, .f32⟩
  | .hbm, ⟨11, _⟩ => ⟨S8, .f32⟩
  | .hbm, ⟨12, _⟩ => ⟨S16x1, .f32⟩
  | .hbm, ⟨13, _⟩ => ⟨S1, .f32⟩
  | .hbm, ⟨14, _⟩ => ⟨S_, .i32⟩
  | .hbm, ⟨15, _⟩ => ⟨S1048576, .i32⟩
  | .hbm, ⟨16, _⟩ => ⟨S1048576, .i1⟩
  | .hbm, ⟨17, _⟩ => ⟨S_, .i32⟩
  | .hbm, ⟨18, _⟩ => ⟨S1048576, .i32⟩
  | .hbm, ⟨19, _⟩ => ⟨S1048576, .i32⟩
  | .hbm, ⟨20, _⟩ => ⟨S1048576, .i32⟩
  | .hbm, ⟨21, _⟩ => ⟨S1048576x1, .i32⟩
  | .hbm, ⟨22, _⟩ => ⟨S1048576x8, .f32⟩
  | .hbm, ⟨23, _⟩ => ⟨S_, .i32⟩
  | .hbm, ⟨24, _⟩ => ⟨S1048576, .i32⟩
  | .hbm, ⟨25, _⟩ => ⟨S1048576, .i1⟩
  | .hbm, ⟨26, _⟩ => ⟨S_, .i32⟩
  | .hbm, ⟨27, _⟩ => ⟨S1048576, .i32⟩
  | .hbm, ⟨28, _⟩ => ⟨S1048576, .i32⟩
  | .hbm, ⟨29, _⟩ => ⟨S1048576, .i32⟩
  | .hbm, ⟨30, _⟩ => ⟨S1048576x1, .i32⟩
  | .hbm, ⟨31, _⟩ => ⟨S1048576x8, .f32⟩
  | .hbm, ⟨32, _⟩ => ⟨S_, .i32⟩
  | .hbm, ⟨33, _⟩ => ⟨S1048576, .i32⟩
  | .hbm, ⟨34, _⟩ => ⟨S1048576, .i1⟩
  | .hbm, ⟨35, _⟩ => ⟨S_, .i32⟩
  | .hbm, ⟨36, _⟩ => ⟨S1048576, .i32⟩
  | .hbm, ⟨37, _⟩ => ⟨S1048576, .i32⟩
  | .hbm, ⟨38, _⟩ => ⟨S1048576, .i32⟩
  | .hbm, ⟨39, _⟩ => ⟨S1048576x1, .i32⟩
  | .hbm, ⟨40, _⟩ => ⟨S1048576x8, .f32⟩
  | .hbm, ⟨41, _⟩ => ⟨S_, .i32⟩
  | .hbm, ⟨42, _⟩ => ⟨S1048576, .i32⟩
  | .hbm, ⟨43, _⟩ => ⟨S1048576, .i1⟩
  | .hbm, ⟨44, _⟩ => ⟨S_, .i32⟩
  | .hbm, ⟨45, _⟩ => ⟨S1048576, .i32⟩
  | .hbm, ⟨46, _⟩ => ⟨S1048576, .i32⟩
  | .hbm, ⟨47, _⟩ => ⟨S1048576, .i32⟩
  | .hbm, ⟨48, _⟩ => ⟨S1048576x1, .i32⟩
  | .hbm, ⟨49, _⟩ => ⟨S1048576x8, .f32⟩
  | .hbm, ⟨50, _⟩ => ⟨S1048576x8, .f32⟩
  | .hbm, ⟨51, _⟩ => ⟨S1048576x16, .f32⟩
  | .hbm, ⟨52, _⟩ => ⟨S1048576x32, .f32⟩
  | .hbm, ⟨53, _⟩ => ⟨S1x32, .f32⟩
  | .hbm, ⟨54, _⟩ => ⟨S1048576x32, .f32⟩
  | .hbm, ⟨55, _⟩ => ⟨S1048576x32, .f32⟩
  | .hbm, ⟨56, _⟩ => ⟨S_, .f32⟩
  | .hbm, ⟨57, _⟩ => ⟨S1048576x32, .f32⟩
  | .hbm, ⟨58, _⟩ => ⟨S1048576x32, .f32⟩
  | .hbm, ⟨59, _⟩ => ⟨S1048576x16, .f32⟩
  | .hbm, ⟨60, _⟩ => ⟨S1x16, .f32⟩
  | .hbm, ⟨61, _⟩ => ⟨S1048576x16, .f32⟩
  | .hbm, ⟨62, _⟩ => ⟨S1048576x16, .f32⟩
  | .hbm, ⟨63, _⟩ => ⟨S_, .f32⟩
  | .hbm, ⟨64, _⟩ => ⟨S1048576x16, .f32⟩
  | .hbm, ⟨65, _⟩ => ⟨S1048576x16, .f32⟩
  | .hbm, ⟨66, _⟩ => ⟨S1048576x8, .f32⟩
  | .hbm, ⟨67, _⟩ => ⟨S1x8, .f32⟩
  | .hbm, ⟨68, _⟩ => ⟨S1048576x8, .f32⟩
  | .hbm, ⟨69, _⟩ => ⟨S1048576x8, .f32⟩
  | .hbm, ⟨70, _⟩ => ⟨S_, .f32⟩
  | .hbm, ⟨71, _⟩ => ⟨S1048576x8, .f32⟩
  | .hbm, ⟨72, _⟩ => ⟨S1048576x8, .f32⟩
  | .hbm, ⟨73, _⟩ => ⟨S1048576x16, .f32⟩
  | .hbm, ⟨74, _⟩ => ⟨S1048576x1, .f32⟩
  | .hbm, ⟨75, _⟩ => ⟨S1x1, .f32⟩
  | .hbm, ⟨76, _⟩ => ⟨S1048576x1, .f32⟩
  | .hbm, ⟨77, _⟩ => ⟨S1048576x1, .f32⟩
  | _, _ => ⟨S1048576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call0_cst : Ref sig .tc := ⟨.hbm, 56, rfl⟩
abbrev main_call0_v0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call1_cst : Ref sig .tc := ⟨.hbm, 63, rfl⟩
abbrev main_call1_v0 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call2_cst : Ref sig .tc := ⟨.hbm, 70, rfl⟩
abbrev main_call2_v0 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x8_S1048576x8_S1048576x16_d1 : Shape.Concatenates [S1048576x8, S1048576x8] S1048576x16 1
  bcast_S32_S1x32_1 : S32.BroadcastsInDim S1x32 (![1] : Fin 1 → Fin S1x32.rank)
  bcast_S1x32_S1048576x32_0_1 : S1x32.BroadcastsInDim S1048576x32 (![0, 1] : Fin 2 → Fin S1048576x32.rank)
  bcast_S_S1048576x32 : S_.BroadcastsInDim S1048576x32 (![] : Fin 0 → Fin S1048576x32.rank)
  bcast_S16_S1x16_1 : S16.BroadcastsInDim S1x16 (![1] : Fin 1 → Fin S1x16.rank)
  bcast_S1x16_S1048576x16_0_1 : S1x16.BroadcastsInDim S1048576x16 (![0, 1] : Fin 2 → Fin S1048576x16.rank)
  bcast_S_S1048576x16 : S_.BroadcastsInDim S1048576x16 (![] : Fin 0 → Fin S1048576x16.rank)
  bcast_S8_S1x8_1 : S8.BroadcastsInDim S1x8 (![1] : Fin 1 → Fin S1x8.rank)
  bcast_S1x8_S1048576x8_0_1 : S1x8.BroadcastsInDim S1048576x8 (![0, 1] : Fin 2 → Fin S1048576x8.rank)
  bcast_S_S1048576x8 : S_.BroadcastsInDim S1048576x8 (![] : Fin 0 → Fin S1048576x8.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  gather_S1000000x8_S1048576x1_S1048576x8_1_0_n_n_0_1_18_wf : GatherDims.WF S1000000x8 S1048576x1 S1048576x8 [1] [0] [] [0] [] 1 ![1, 8]
  dot_S1048576x16_S16x32_S1048576x32_1_0_0_1_n_n_wf : DotDims.WF S1048576x16 S16x32 S1048576x32 [1] [0] [0] [1] [] []
  dot_S1048576x32_S32x16_S1048576x16_1_0_0_1_n_n_wf : DotDims.WF S1048576x32 S32x16 S1048576x16 [1] [0] [0] [1] [] []
  dot_S1048576x16_S16x8_S1048576x8_1_0_0_1_n_n_wf : DotDims.WF S1048576x16 S16x8 S1048576x8 [1] [0] [0] [1] [] []
  dot_S1048576x16_S16x1_S1048576x1_1_0_0_1_n_n_wf : DotDims.WF S1048576x16 S16x1 S1048576x1 [1] [0] [0] [1] [] []

variable [Facts₀]

def gather_S1000000x8_S1048576x1_S1048576x8_1_0_n_n_0_1_18 : GatherDims S1000000x8 S1048576x1 S1048576x8 where
  offsetDims := [1]
  collapsedSliceDims := [0]
  operandBatchingDims := []
  startIndicesBatchingDims := []
  startIndexMap := [0]
  indexVectorDim := 1
  sliceSizes := ![1, 8]
  wf := gather_S1000000x8_S1048576x1_S1048576x8_1_0_n_n_0_1_18_wf
def dot_S1048576x16_S16x32_S1048576x32_1_0_0_1_n_n : DotDims S1048576x16 S16x32 S1048576x32 where
  lhsContracting := [1]
  rhsContracting := [0]
  lhsNonContracting := [0]
  rhsNonContracting := [1]
  lhsBatch := []
  rhsBatch := []
  wf := dot_S1048576x16_S16x32_S1048576x32_1_0_0_1_n_n_wf
def dot_S1048576x32_S32x16_S1048576x16_1_0_0_1_n_n : DotDims S1048576x32 S32x16 S1048576x16 where
  lhsContracting := [1]
  rhsContracting := [0]
  lhsNonContracting := [0]
  rhsNonContracting := [1]
  lhsBatch := []
  rhsBatch := []
  wf := dot_S1048576x32_S32x16_S1048576x16_1_0_0_1_n_n_wf
def dot_S1048576x16_S16x8_S1048576x8_1_0_0_1_n_n : DotDims S1048576x16 S16x8 S1048576x8 where
  lhsContracting := [1]
  rhsContracting := [0]
  lhsNonContracting := [0]
  rhsNonContracting := [1]
  lhsBatch := []
  rhsBatch := []
  wf := dot_S1048576x16_S16x8_S1048576x8_1_0_0_1_n_n_wf
def dot_S1048576x16_S16x1_S1048576x1_1_0_0_1_n_n : DotDims S1048576x16 S16x1 S1048576x1 where
  lhsContracting := [1]
  rhsContracting := [0]
  lhsNonContracting := [0]
  rhsNonContracting := [1]
  lhsBatch := []
  rhsBatch := []
  wf := dot_S1048576x16_S16x1_S1048576x1_1_0_0_1_n_n_wf

class Facts : Prop extends Facts₀ where

variable [Facts]
-- ==== Proof.FrameBits.lean ====
/-
  The frame of the program: it terminates on every weakly fair execution, nothing faults, and its fourteen argument
  arrays end as they were launched.

  @main is forty-one host operations (four index wraps and row gathers, their concatenation into one [1048576, 32]
  array, four reshapes of the bias vectors to one-row matrices) followed by one pipelined region of 128 grid points.
  None of the host operations writes an argument array, so the region finds each argument as launched.  The body at
  grid point t loads the nine input blocks whole — rows 8192·t … 8192·t + 8191 of the gathered array, and the eight
  weight and bias arrays, each a single block — computes, and stores the whole [8192, 1] output block once; it keeps
  nothing between points.  So what the output's staging buffer holds after the body is the one stored value, a pure
  function of the input blocks, and the pipeline's proof data names, per point, each input buffer at its block and the
  output buffer at that function.  The run is then the library's frame run of one pipeline, and the frame claim is
  read off its post: an argument that is a window's array is an input array, unchanged by the library's account of
  inputs; every other argument is a buffer no window stages, read back as the region found it.
-/
import proofs.«102874_j50835232916081_1_alg».proof.Proof.Gen.Kernel.Launch
import proofs.«102874_j50835232916081_1_alg».proof.Proof.Gen.Kernel.Skeleton
import proofs.«102874_j50835232916081_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the forty-one host operations. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! Each host operation writes its own result buffer and nothing else, and no result buffer is an argument: the
    region finds every argument array as launched. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the pipeline fetched it there or
    kept it from the point before (its block index has then not moved), for any proof data over `V`'s arrays whose
    body leaves input buffers in place. -/

theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, the argument arrays unchanged: a staged argument (the four weight
    matrices) is an input array; every other argument is a buffer the region passes by. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 1).trans (((dats 0 c).arrAt_in 1 rfl _).trans ((hA c 1).trans (V_main_arg6 m c))),
      ((h c).2 main_arg7 (Pipeline.mem_restRefs_of main_arg7 (by decide) (by decide))).trans (V_main_arg7 m c),
      ((h c).1 3).trans (((dats 0 c).arrAt_in 3 rfl _).trans ((hA c 3).trans (V_main_arg8 m c))),
      ((h c).2 main_arg9 (Pipeline.mem_restRefs_of main_arg9 (by decide) (by decide))).trans (V_main_arg9 m c),
      ((h c).1 5).trans (((dats 0 c).arrAt_in 5 rfl _).trans ((hA c 5).trans (V_main_arg10 m c))),
      ((h c).2 main_arg11 (Pipeline.mem_restRefs_of main_arg11 (by decide) (by decide))).trans (V_main_arg11 m c),
      ((h c).1 7).trans (((dats 0 c).arrAt_in 7 rfl _).trans ((hA c 7).trans (V_main_arg12 m c))),
      ((h c).2 main_arg13 (Pipeline.mem_restRefs_of main_arg13 (by decide) (by decide))).trans (V_main_arg13 m c)⟩) h

/-! ## The body's accesses: every load and the one store take the whole buffer -/

abbrev rIn0 : Rect S8192x32 := Rect.unit (s := S8192x32) ![0, 0] S8192x32.size inb_S8192x32_S8192x32_0_0
abbrev rIn1 : Rect S16x32 := Rect.unit (s := S16x32) ![0, 0] S16x32.size inb_S16x32_S16x32_0_0
abbrev rIn2 : Rect S1x32 := Rect.unit (s := S1x32) ![0, 0] S1x32.size inb_S1x32_S1x32_0_0
abbrev rIn3 : Rect S32x16 := Rect.unit (s := S32x16) ![0, 0] S32x16.size inb_S32x16_S32x16_0_0
abbrev rIn4 : Rect S1x16 := Rect.unit (s := S1x16) ![0, 0] S1x16.size inb_S1x16_S1x16_0_0
abbrev rIn5 : Rect S16x8 := Rect.unit (s := S16x8) ![0, 0] S16x8.size inb_S16x8_S16x8_0_0
abbrev rIn6 : Rect S1x8 := Rect.unit (s := S1x8) ![0, 0] S1x8.size inb_S1x8_S1x8_0_0
abbrev rIn7 : Rect S16x1 := Rect.unit (s := S16x1) ![0, 0] S16x1.size inb_S16x1_S16x1_0_0
abbrev rIn8 : Rect S1x1 := Rect.unit (s := S1x1) ![0, 0] S1x1.size inb_S1x1_S1x1_0_0
abbrev rOut : Rect S8192x1 := Rect.unit (s := S8192x1) ![0, 0] S8192x1.size inb_S8192x1_S8192x1_0_0

/-! ## What the body leaves in the output window's buffer -/

/-- The output buffer after the body, from the nine input blocks: the one stored value — the four dense layers over
    the loaded blocks — laid over the whole buffer. -/
def outBlock (x0 : Vec F S8192x32 .f32) (x1 : Vec F S16x32 .f32) (x2 : Vec F S1x32 .f32) (x3 : Vec F S32x16 .f32) (x4 : Vec F S1x16 .f32) (x5 : Vec F S16x8 .f32) (x6 : Vec F S1x8 .f32) (x7 : Vec F S16x1 .f32) (x8 : Vec F S1x1 .f32) : Vec F S8192x1 .f32 :=
  View.canon [⟨rOut, k0_pay1 (k0_pay2 (View.ld x0 rIn0) (View.ld x1 rIn1) (View.ld x2 rIn2) (View.ld x3 rIn3) (View.ld x4 rIn4) (View.ld x5 rIn5) (View.ld x6 rIn6)) (View.ld x7 rIn7) (View.ld x8 rIn8)⟩]

/-- The one store covers the buffer. -/
theorem outCover (p0 : Vec F S8192x1 .f32) (y : S8192x1.Idx) :
    ∃ pc ∈ ([⟨rOut, p0⟩] : List (View.Piece (Elt F) S8192x1 .f32)), y ∈ pc.1.set :=
  View.cover_of_tiled [⟨rOut, p0⟩] S8192x1.size (by rfl) y

/-! ## The body's triple -/

set_option maxHeartbeats 1000000 in
/-- The body on whole staging buffers — the inputs' at contents `x·`, the output's at anything — runs to the
    continuation with the inputs' as they were and the output's at `outBlock` of them. -/
theorem sound_kernel (c : Dev nD) (E : Set ℕ) (i : grid0.Coords) (a0 : Memref sig .tc .vmem S8192x32 .f32) (ha0 : a0.IsWhole) (a1 : Memref sig .tc .vmem S16x32 .f32) (ha1 : a1.IsWhole) (a2 : Memref sig .tc .vmem S1x32 .f32) (ha2 : a2.IsWhole) (a3 : Memref sig .tc .vmem S32x16 .f32) (ha3 : a3.IsWhole) (a4 : Memref sig .tc .vmem S1x16 .f32) (ha4 : a4.IsWhole) (a5 : Memref sig .tc .vmem S16x8 .f32) (ha5 : a5.IsWhole) (a6 : Memref sig .tc .vmem S1x8 .f32) (ha6 : a6.IsWhole) (a7 : Memref sig .tc .vmem S16x1 .f32) (ha7 : a7.IsWhole) (a8 : Memref sig .tc .vmem S1x1 .f32) (ha8 : a8.IsWhole) (a9 : Memref sig .tc .vmem S8192x1 .f32) (ha9 : a9.IsWhole)
    (x0 : Vec F S8192x32 .f32) (x1 : Vec F S16x32 .f32) (x2 : Vec F S1x32 .f32) (x3 : Vec F S32x16 .f32) (x4 : Vec F S1x16 .f32) (x5 : Vec F S16x8 .f32) (x6 : Vec F S1x8 .f32) (x7 : Vec F S16x1 .f32) (x8 : Vec F S1x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (outBlock x0 x1 x2 x3 x4 x5 x6 x7 x8)) -∗ K ⟨⟩))
      ⊢ wp frame (wpE (defs₀ (F := F)) Variants.none c none) E (cc0__neumf_kernel i a0 ha0 a1 ha1 a2 ha2 a3 ha3 a4 ha4 a5 ha5 a6 ha6 a7 ha7 a8 ha8 a9 ha9) K := by
  simp only [cc0__neumf_kernel_eq_skeleton]; unfold cc0__neumf_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (outCover _)

/-! ## The pipeline's proof data -/

/-- On core `c`: the arrays as the region finds them; after the body at point `t` each input buffer at its block
    and the output buffer at `outBlock` of the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_out (c : Dev nD) (t : Fin cfg0.N) : (dats m 0 c).after 9 t = outBlock (iblk m c 0 t) (iblk m c 1 t) (iblk m c 2 t) (iblk m c 3 t) (iblk m c 4 t) (iblk m c 5 t) (iblk m c 6 t) (iblk m c 7 t) (iblk m c 8 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d
theorem before_in7 (c : Dev nD) (t : Fin cfg0.N) (d) : (dats m 0 c).before 7 t d = iblk m c 7 t :=
  before_in7_of m (dats m 0 c) (A_eq m c 7) (after_in7 m c) t d
theorem before_in8 (c : Dev nD) (t : Fin cfg0.N) (d) : (dats m 0 c).before 8 t d = iblk m c 8 t :=
  before_in8_of m (dats m 0 c) (A_eq m c 8) (after_in8 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the input buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each array of the pipeline holds what
    the library computes from the proof data and every other unscoped buffer what the region found in it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Frm

end
-- ==== Proof.FrameIdeal.lean ====
/-
  The frame of the program: it terminates on every weakly fair execution, nothing faults, and its fourteen argument
  arrays end as they were launched.

  @main is forty-one host operations (four index wraps and row gathers, their concatenation into one [1048576, 32]
  array, four reshapes of the bias vectors to one-row matrices) followed by one pipelined region of 128 grid points.
  None of the host operations writes an argument array, so the region finds each argument as launched.  The body at
  grid point t loads the nine input blocks whole — rows 8192·t … 8192·t + 8191 of the gathered array, and the eight
  weight and bias arrays, each a single block — computes, and stores the whole [8192, 1] output block once; it keeps
  nothing between points.  So what the output's staging buffer holds after the body is the one stored value, a pure
  function of the input blocks, and the pipeline's proof data names, per point, each input buffer at its block and the
  output buffer at that function.  The run is then the library's frame run of one pipeline, and the frame claim is
  read off its post: an argument that is a window's array is an input array, unchanged by the library's account of
  inputs; every other argument is a buffer no window stages, read back as the region found it.
-/
import proofs.«102874_j50835232916081_1_alg».proof.Proof.Gen.KernelIdeal.Launch
import proofs.«102874_j50835232916081_1_alg».proof.Proof.Gen.KernelIdeal.Skeleton
import proofs.«102874_j50835232916081_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the forty-one host operations. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! Each host operation writes its own result buffer and nothing else, and no result buffer is an argument: the
    region finds every argument array as launched. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the pipeline fetched it there or
    kept it from the point before (its block index has then not moved), for any proof data over `V`'s arrays whose
    body leaves input buffers in place. -/

theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, the argument arrays unchanged: a staged argument (the four weight
    matrices) is an input array; every other argument is a buffer the region passes by. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 1).trans (((dats 0 c).arrAt_in 1 rfl _).trans ((hA c 1).trans (V_main_arg6 m c))),
      ((h c).2 main_arg7 (Pipeline.mem_restRefs_of main_arg7 (by decide) (by decide))).trans (V_main_arg7 m c),
      ((h c).1 3).trans (((dats 0 c).arrAt_in 3 rfl _).trans ((hA c 3).trans (V_main_arg8 m c))),
      ((h c).2 main_arg9 (Pipeline.mem_restRefs_of main_arg9 (by decide) (by decide))).trans (V_main_arg9 m c),
      ((h c).1 5).trans (((dats 0 c).arrAt_in 5 rfl _).trans ((hA c 5).trans (V_main_arg10 m c))),
      ((h c).2 main_arg11 (Pipeline.mem_restRefs_of main_arg11 (by decide) (by decide))).trans (V_main_arg11 m c),
      ((h c).1 7).trans (((dats 0 c).arrAt_in 7 rfl _).trans ((hA c 7).trans (V_main_arg12 m c))),
      ((h c).2 main_arg13 (Pipeline.mem_restRefs_of main_arg13 (by decide) (by decide))).trans (V_main_arg13 m c)⟩) h

/-! ## The body's accesses: every load and the one store take the whole buffer -/

abbrev rIn0 : Rect S8192x32 := Rect.unit (s := S8192x32) ![0, 0] S8192x32.size inb_S8192x32_S8192x32_0_0
abbrev rIn1 : Rect S16x32 := Rect.unit (s := S16x32) ![0, 0] S16x32.size inb_S16x32_S16x32_0_0
abbrev rIn2 : Rect S1x32 := Rect.unit (s := S1x32) ![0, 0] S1x32.size inb_S1x32_S1x32_0_0
abbrev rIn3 : Rect S32x16 := Rect.unit (s := S32x16) ![0, 0] S32x16.size inb_S32x16_S32x16_0_0
abbrev rIn4 : Rect S1x16 := Rect.unit (s := S1x16) ![0, 0] S1x16.size inb_S1x16_S1x16_0_0
abbrev rIn5 : Rect S16x8 := Rect.unit (s := S16x8) ![0, 0] S16x8.size inb_S16x8_S16x8_0_0
abbrev rIn6 : Rect S1x8 := Rect.unit (s := S1x8) ![0, 0] S1x8.size inb_S1x8_S1x8_0_0
abbrev rIn7 : Rect S16x1 := Rect.unit (s := S16x1) ![0, 0] S16x1.size inb_S16x1_S16x1_0_0
abbrev rIn8 : Rect S1x1 := Rect.unit (s := S1x1) ![0, 0] S1x1.size inb_S1x1_S1x1_0_0
abbrev rOut : Rect S8192x1 := Rect.unit (s := S8192x1) ![0, 0] S8192x1.size inb_S8192x1_S8192x1_0_0

/-! ## What the body leaves in the output window's buffer -/

/-- The output buffer after the body, from the nine input blocks: the one stored value — the four dense layers over
    the loaded blocks — laid over the whole buffer. -/
def outBlock (x0 : Vec F S8192x32 .f32) (x1 : Vec F S16x32 .f32) (x2 : Vec F S1x32 .f32) (x3 : Vec F S32x16 .f32) (x4 : Vec F S1x16 .f32) (x5 : Vec F S16x8 .f32) (x6 : Vec F S1x8 .f32) (x7 : Vec F S16x1 .f32) (x8 : Vec F S1x1 .f32) : Vec F S8192x1 .f32 :=
  View.canon [⟨rOut, k0_pay1 (k0_pay2 (View.ld x0 rIn0) (View.ld x1 rIn1) (View.ld x2 rIn2) (View.ld x3 rIn3) (View.ld x4 rIn4) (View.ld x5 rIn5) (View.ld x6 rIn6)) (View.ld x7 rIn7) (View.ld x8 rIn8)⟩]

/-- The one store covers the buffer. -/
theorem outCover (p0 : Vec F S8192x1 .f32) (y : S8192x1.Idx) :
    ∃ pc ∈ ([⟨rOut, p0⟩] : List (View.Piece (Elt F) S8192x1 .f32)), y ∈ pc.1.set :=
  View.cover_of_tiled [⟨rOut, p0⟩] S8192x1.size (by rfl) y

/-! ## The body's triple -/

set_option maxHeartbeats 1000000 in
/-- The body on whole staging buffers — the inputs' at contents `x·`, the output's at anything — runs to the
    continuation with the inputs' as they were and the output's at `outBlock` of them. -/
theorem sound_kernel (c : Dev nD) (E : Set ℕ) (i : grid0.Coords) (a0 : Memref sig .tc .vmem S8192x32 .f32) (ha0 : a0.IsWhole) (a1 : Memref sig .tc .vmem S16x32 .f32) (ha1 : a1.IsWhole) (a2 : Memref sig .tc .vmem S1x32 .f32) (ha2 : a2.IsWhole) (a3 : Memref sig .tc .vmem S32x16 .f32) (ha3 : a3.IsWhole) (a4 : Memref sig .tc .vmem S1x16 .f32) (ha4 : a4.IsWhole) (a5 : Memref sig .tc .vmem S16x8 .f32) (ha5 : a5.IsWhole) (a6 : Memref sig .tc .vmem S1x8 .f32) (ha6 : a6.IsWhole) (a7 : Memref sig .tc .vmem S16x1 .f32) (ha7 : a7.IsWhole) (a8 : Memref sig .tc .vmem S1x1 .f32) (ha8 : a8.IsWhole) (a9 : Memref sig .tc .vmem S8192x1 .f32) (ha9 : a9.IsWhole)
    (x0 : Vec F S8192x32 .f32) (x1 : Vec F S16x32 .f32) (x2 : Vec F S1x32 .f32) (x3 : Vec F S32x16 .f32) (x4 : Vec F S1x16 .f32) (x5 : Vec F S16x8 .f32) (x6 : Vec F S1x8 .f32) (x7 : Vec F S16x1 .f32) (x8 : Vec F S1x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (outBlock x0 x1 x2 x3 x4 x5 x6 x7 x8)) -∗ K ⟨⟩))
      ⊢ wp frame (wpE (defs₀ (F := F)) Variants.none c none) E (cc0__neumf_kernel i a0 ha0 a1 ha1 a2 ha2 a3 ha3 a4 ha4 a5 ha5 a6 ha6 a7 ha7 a8 ha8 a9 ha9) K := by
  simp only [cc0__neumf_kernel_eq_skeleton]; unfold cc0__neumf_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (outCover _)

/-! ## The pipeline's proof data -/

/-- On core `c`: the arrays as the region finds them; after the body at point `t` each input buffer at its block
    and the output buffer at `outBlock` of the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_out (c : Dev nD) (t : Fin cfg0.N) : (dats m 0 c).after 9 t = outBlock (iblk m c 0 t) (iblk m c 1 t) (iblk m c 2 t) (iblk m c 3 t) (iblk m c 4 t) (iblk m c 5 t) (iblk m c 6 t) (iblk m c 7 t) (iblk m c 8 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d
theorem before_in7 (c : Dev nD) (t : Fin cfg0.N) (d) : (dats m 0 c).before 7 t d = iblk m c 7 t :=
  before_in7_of m (dats m 0 c) (A_eq m c 7) (after_in7 m c) t d
theorem before_in8 (c : Dev nD) (t : Fin cfg0.N) (d) : (dats m 0 c).before 8 t d = iblk m c 8 t :=
  before_in8_of m (dats m 0 c) (A_eq m c 8) (after_in8 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the input buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each array of the pipeline holds what
    the library computes from the proof data and every other unscoped buffer what the region found in it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Frm

end
-- ==== Proof.Entry.lean ====
/-
  What the region finds, and what each grid point's blocks are.

  The packed array the kernel stages is the join, along the columns, of four gathered [1048576, 8] arrays — rows of
  the two MLP tables and the two GMF tables picked by the user and item indices, a negative index first counted from
  the table's end — and the four bias operands are the bias vectors recast as one-row matrices.  The grid is one axis
  of 128 points; at point t the packed array's block is its rows 8192·t … 8192·t + 8191, the output's block the same
  rows of the result, and each weight or bias operand is a single block, the whole array, at every point.
-/
import proofs.«102874_j50835232916081_1_alg».proof.Proof.FrameIdeal
import Idealize.ShloMosaic.Lib.StableHlo.Run
import Idealize.ShloMosaic.Lib.Pipeline.Value
import Idealize.ShloMosaic.Lib.ValueIdx

set_option maxRecDepth 16384

noncomputable section

namespace Cert.KernelIdeal.Entry

open Cert.KernelIdeal Cert.KernelIdeal.Gen Cert.KernelIdeal.Frm
open Idealize.ShloMosaic Idealize.ShloMosaic.TcCoe Idealize.ShloMosaic.ValueIdx Idealize.SL.Sem Idealize.ShloMosaic.StableHlo

variable {F : FTy → Type} [FloatOps F]

/-- Rows of a table picked by an index vector: an index below zero is first moved up by the table's height, then
    the rows are gathered. -/
def rows (tbl : (⟨S1000000x8, .f32⟩ : BufTy).Contents (Elt F)) (idx : (⟨S1048576, .i32⟩ : BufTy).Contents (Elt F)) :
    (⟨S1048576x8, .f32⟩ : BufTy).Contents (Elt F) :=
  Host.gather gather_S1000000x8_S1048576x1_S1048576x8_1_0_n_n_0_1_18 tbl
    (broadcastInDim S1048576x1 ![0] bcast_S1048576_S1048576x1_0
      (select (cmpi .slt idx (broadcastInDim S1048576 ![] bcast_S_S1048576 (constantI S_ 32 0#32)))
        (addi idx (broadcastInDim S1048576 ![] bcast_S_S1048576 (constantI S_ 32 1000000#32))) idx))

variable (m : (ℓ : Loc nD τ sig) → Buf (Elt F) ℓ)

/-- The packed array as the region finds it: the four gathered arrays side by side. -/
theorem V_packed (c : Dev nD) :
    (V m c main_v28 : S1048576x32.Idx → Elt F .f32)
      = concatenate S1048576x32 1 [⟨S1048576x8, rows (m ((c : Thread nD τ).loc main_arg2)) (m ((c : Thread nD τ).loc main_arg0))⟩,
          ⟨S1048576x8, rows (m ((c : Thread nD τ).loc main_arg3)) (m ((c : Thread nD τ).loc main_arg1))⟩,
          ⟨S1048576x8, rows (m ((c : Thread nD τ).loc main_arg4)) (m ((c : Thread nD τ).loc main_arg0))⟩,
          ⟨S1048576x8, rows (m ((c : Thread nD τ).loc main_arg5)) (m ((c : Thread nD τ).loc main_arg1))⟩]
          concatenates_S1048576x8_S1048576x8_S1048576x8_S1048576x8_S1048576x32_d1 := by
  dsimp only [V, hostOps0]
  after_results_simp
  rfl

/-- The bias operands as the region finds them: each bias vector as a one-row matrix. -/
theorem V_bias0 (c : Dev nD) : (V m c main_v29 : S1x32.Idx → Elt F .f32) = shapeCast S1x32 (m ((c : Thread nD τ).loc main_arg7)) shapeCasts_S32_S1x32 := by
  dsimp only [V, hostOps0]; after_results_simp; rfl
theorem V_bias1 (c : Dev nD) : (V m c main_v30 : S1x16.Idx → Elt F .f32) = shapeCast S1x16 (m ((c : Thread nD τ).loc main_arg9)) shapeCasts_S16_S1x16 := by
  dsimp only [V, hostOps0]; after_results_simp; rfl
theorem V_bias2 (c : Dev nD) : (V m c main_v31 : S1x8.Idx → Elt F .f32) = shapeCast S1x8 (m ((c : Thread nD τ).loc main_arg11)) shapeCasts_S8_S1x8 := by
  dsimp only [V, hostOps0]; after_results_simp; rfl
theorem V_biaso (c : Dev nD) : (V m c main_v32 : S1x1.Idx → Elt F .f32) = shapeCast S1x1 (m ((c : Thread nD τ).loc main_arg13)) shapeCasts_S1_S1x1 := by
  dsimp only [V, hostOps0]; after_results_simp; rfl

/-! ## The grid's blocks -/

/-- The printed index maps over the grid: the packed array's and the output's block index on the rows is the point,
    and every other block index is zero. -/
theorem idx_facts : ∀ t : Fin cfg0.N, win0_0.index t (0 : Fin 2) = t.val
    ∧ win0_0.index t (1 : Fin 2) = 0
    ∧ win0_9.index t (0 : Fin 2) = t.val
    ∧ win0_9.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0 :=
  (by decide +kernel : ∀ t : Fin grid0.N, _)

theorem point_lt (t : Fin cfg0.N) : t.val < 128 := lt_of_lt_of_eq t.isLt N_0

/-- Row p of point t's block is row 8192·t + p of the array. -/
def rowOf (t : Fin cfg0.N) (p : Fin 8192) : Fin 1048576 :=
  ⟨8192 * t.val + p.val, by have := point_lt t; have := p.isLt; omega⟩

/-- The packed array's block at point t, entry (p, k): the array at row 8192·t + p, column k. -/
theorem iblk0_apply (c : Dev nD) (t : Fin cfg0.N) (p : Fin 8192) (k : Fin 32) :
    (iblk m c 0 t : S8192x32.Idx → Elt F .f32) (ix2 p k) = (V m c main_v28 : S1048576x32.Idx → Elt F .f32) (ix2 (rowOf t p) k) := by
  show V m c main_v28 (((cfg0.win 0).blk t).view.emb (ix2 p k)) = V m c main_v28 (ix2 (rowOf t p) k)
  congr 1; funext a; apply Fin.ext
  match a with
  | ⟨0, _⟩ => show win0_0.index t (0 : Fin 2) * 8192 + 1 * p.val = 8192 * t.val + p.val; rw [(idx_facts t).1]; omega
  | ⟨1, _⟩ => show win0_0.index t (1 : Fin 2) * 32 + 1 * k.val = k.val; rw [(idx_facts t).2.1]; omega

/-- The output's block at point t covers, of the result, entry (8192·t + p, 0) at its entry (p, 0). -/
theorem oblk_emb (t : Fin cfg0.N) (p : Fin 8192) (q : Fin 1) :
    ((cfg0.win 9).blk t).view.emb (ix2 p q) = (ix2 (rowOf t p) q : S1048576x1.Idx) := by
  funext a; apply Fin.ext
  match a with
  | ⟨0, _⟩ => show win0_9.index t (0 : Fin 2) * 8192 + 1 * p.val = 8192 * t.val + p.val; rw [(idx_facts t).2.2.1]; omega
  | ⟨1, _⟩ => show win0_9.index t (1 : Fin 2) * 1 + 1 * q.val = q.val; rw [(idx_facts t).2.2.2.1]; omega

/-! Each weight or bias operand's block is the whole array, at every point. -/

theorem iblk1_eq (c : Dev nD) (t : Fin cfg0.N) : (iblk m c 1 t : S16x32.Idx → Elt F .f32) = V m c main_arg6 := by
  funext j
  show V m c main_arg6 (((cfg0.win 1).blk t).view.emb j) = V m c main_arg6 j
  congr 1; funext a; apply Fin.ext
  match a with
  | ⟨0, _⟩ => show win0_1.index t (0 : Fin 2) * 16 + 1 * (j 0).val = (j 0).val; rw [(idx_facts t).2.2.2.2.1]; omega
  | ⟨1, _⟩ => show win0_1.index t (1 : Fin 2) * 32 + 1 * (j 1).val = (j 1).val; rw [(idx_facts t).2.2.2.2.2.1]; omega
theorem iblk2_eq (c : Dev nD) (t : Fin cfg0.N) : (iblk m c 2 t : S1x32.Idx → Elt F .f32) = V m c main_v29 := by
  funext j
  show V m c main_v29 (((cfg0.win 2).blk t).view.emb j) = V m c main_v29 j
  congr 1; funext a; apply Fin.ext
  match a with
  | ⟨0, _⟩ => show win0_2.index t (0 : Fin 2) * 1 + 1 * (j 0).val = (j 0).val; rw [(idx_facts t).2.2.2.2.2.2.1]; omega
  | ⟨1, _⟩ => show win0_2.index t (1 : Fin 2) * 32 + 1 * (j 1).val = (j 1).val; rw [(idx_facts t).2.2.2.2.2.2.2.1]; omega
theorem iblk3_eq (c : Dev nD) (t : Fin cfg0.N) : (iblk m c 3 t : S32x16.Idx → Elt F .f32) = V m c main_arg8 := by
  funext j
  show V m c main_arg8 (((cfg0.win 3).blk t).view.emb j) = V m c main_arg8 j
  congr 1; funext a; apply Fin.ext
  match a with
  | ⟨0, _⟩ => show win0_3.index t (0 : Fin 2) * 32 + 1 * (j 0).val = (j 0).val; rw [(idx_facts t).2.2.2.2.2.2.2.2.1]; omega
  | ⟨1, _⟩ => show win0_3.index t (1 : Fin 2) * 16 + 1 * (j 1).val = (j 1).val; rw [(idx_facts t).2.2.2.2.2.2.2.2.2.1]; omega
theorem iblk4_eq (c : Dev nD) (t : Fin cfg0.N) : (iblk m c 4 t : S1x16.Idx → Elt F .f32) = V m c main_v30 := by
  funext j
  show V m c main_v30 (((cfg0.win 4).blk t).view.emb j) = V m c main_v30 j
  congr 1; funext a; apply Fin.ext
  match a with
  | ⟨0, _⟩ => show win0_4.index t (0 : Fin 2) * 1 + 1 * (j 0).val = (j 0).val; rw [(idx_facts t).2.2.2.2.2.2.2.2.2.2.1]; omega
  | ⟨1, _⟩ => show win0_4.index t (1 : Fin 2) * 16 + 1 * (j 1).val = (j 1).val; rw [(idx_facts t).2.2.2.2.2.2.2.2.2.2.2.1]; omega
theorem iblk5_eq (c : Dev nD) (t : Fin cfg0.N) : (iblk m c 5 t : S16x8.Idx → Elt F .f32) = V m c main_arg10 := by
  funext j
  show V m c main_arg10 (((cfg0.win 5).blk t).view.emb j) = V m c main_arg10 j
  congr 1; funext a; apply Fin.ext
  match a with
  | ⟨0, _⟩ => show win0_5.index t (0 : Fin 2) * 16 + 1 * (j 0).val = (j 0).val; rw [(idx_facts t).2.2.2.2.2.2.2.2.2.2.2.2.1]; omega
  | ⟨1, _⟩ => show win0_5.index t (1 : Fin 2) * 8 + 1 * (j 1).val = (j 1).val; rw [(idx_facts t).2.2.2.2.2.2.2.2.2.2.2.2.2.1]; omega
theorem iblk6_eq (c : Dev nD) (t : Fin cfg0.N) : (iblk m c 6 t : S1x8.Idx → Elt F .f32) = V m c main_v31 := by
  funext j
  show V m c main_v31 (((cfg0.win 6).blk t).view.emb j) = V m c main_v31 j
  congr 1; funext a; apply Fin.ext
  match a with
  | ⟨0, _⟩ => show win0_6.index t (0 : Fin 2) * 1 + 1 * (j 0).val = (j 0).val; rw [(idx_facts t).2.2.2.2.2.2.2.2.2.2.2.2.2.2.1]; omega
  | ⟨1, _⟩ => show win0_6.index t (1 : Fin 2) * 8 + 1 * (j 1).val = (j 1).val; rw [(idx_facts t).2.2.2.2.2.2.2.2.2.2.2.2.2.2.2.1]; omega
theorem iblk7_eq (c : Dev nD) (t : Fin cfg0.N) : (iblk m c 7 t : S16x1.Idx → Elt F .f32) = V m c main_arg12 := by
  funext j
  show V m c main_arg12 (((cfg0.win 7).blk t).view.emb j) = V m c main_arg12 j
  congr 1; funext a; apply Fin.ext
  match a with
  | ⟨0, _⟩ => show win0_7.index t (0 : Fin 2) * 16 + 1 * (j 0).val = (j 0).val; rw [(idx_facts t).2.2.2.2.2.2.2.2.2.2.2.2.2.2.2.2.1]; omega
  | ⟨1, _⟩ => show win0_7.index t (1 : Fin 2) * 1 + 1 * (j 1).val = (j 1).val; rw [(idx_facts t).2.2.2.2.2.2.2.2.2.2.2.2.2.2.2.2.2.1]; omega
theorem iblk8_eq (c : Dev nD) (t : Fin cfg0.N) : (iblk m c 8 t : S1x1.Idx → Elt F .f32) = V m c main_v32 := by
  funext j
  show V m c main_v32 (((cfg0.win 8).blk t).view.emb j) = V m c main_v32 j
  congr 1; funext a; apply Fin.ext
  match a with
  | ⟨0, _⟩ => show win0_8.index t (0 : Fin 2) * 1 + 1 * (j 0).val = (j 0).val; rw [(idx_facts t).2.2.2.2.2.2.2.2.2.2.2.2.2.2.2.2.2.2.1]; omega
  | ⟨1, _⟩ => show win0_8.index t (1 : Fin 2) * 1 + 1 * (j 1).val = (j 1).val; rw [(idx_facts t).2.2.2.2.2.2.2.2.2.2.2.2.2.2.2.2.2.2.2]; omega

end Cert.KernelIdeal.Entry

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.Layers.lean ====
/-
  A dense layer read at an index, in the two spellings the two programs use, and a join of two row blocks.

  Over the extended reals a `tpu.matmul` into a zero accumulator and a host `dot_general` are the same finite sum
  Σ_k x(p, k) · W(k, q) over the shared axis, a change of float format is the identity, and `max(·, 0)` is taken
  entry by entry.  The kernel adds its bias as a one-row matrix broadcast down the rows, the host as a vector laid
  along the columns: at (p, q) both read the bias at q.  Each layer's output row therefore depends on the same row of
  its input only, which is what lets a block of rows be compared with the same rows of the whole array.
-/
import proofs.«102874_j50835232916081_1_alg».proof.Proof.LibPlainDot

noncomputable section

namespace Cert.Layers

open Idealize.ShloMosaic Idealize.ShloMosaic.ValueIdx Cert.LibPlainDot

variable {R K N : Nat}

/-- The zero word denotes zero. -/
theorem zero_word : (FloatOps.ofBits (F := Ideal) .f32 0x00000000#32 : EReal) = 0 := by
  rw [Ideal.ofBits_def]; exact Ideal.ofBits_zero_f32

/-- A one-row matrix broadcast down the rows reads, at (p, q), its entry (0, q). -/
theorem rowMatBroadcastTo_apply {α : Type} {C : Nat} (v : (⟨2, ![1, C]⟩ : Shape).Idx → α)
    (h2 : (⟨2, ![1, C]⟩ : Shape).Broadcasts ⟨2, ![R, C]⟩) (p : Fin R) (q : Fin C) :
    broadcastTo ⟨2, ![R, C]⟩ v h2 (ix2 p q) = v (ix2 (0 : Fin 1) q) :=
  broadcastTo_apply v h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)

/-- The kernel's dense layer before its nonlinearity, at (p, q): Σ_k x(p, k) · W(k, q) + b(0, q). -/
theorem denseK_apply {φ₁ φ₂ : FTy} (x : FVec Ideal ⟨2, ![R, K]⟩ φ₁) (W : FVec Ideal ⟨2, ![K, N]⟩ φ₂)
    (b : FVec Ideal ⟨2, ![1, N]⟩ .f32) (hb : (⟨2, ![1, N]⟩ : Shape).Broadcasts ⟨2, ![R, N]⟩) (p : Fin R) (q : Fin N) :
    addf (FloatOps.matmul (DotDims.plain R K N) none x W (constant ⟨2, ![R, N]⟩ .f32 0x00000000#32)) (broadcastTo ⟨2, ![R, N]⟩ b hb) (ix2 p q)
      = (∑ k : Fin K, (x (ix2 p k) : EReal) * (W (ix2 k q) : EReal)) + (b (ix2 (0 : Fin 1) q) : EReal) := by
  show FloatOps.addf (FloatOps.matmul (DotDims.plain R K N) none x W (constant ⟨2, ![R, N]⟩ .f32 0x00000000#32) (ix2 p q))
      (broadcastTo ⟨2, ![R, N]⟩ b hb (ix2 p q)) = _
  rw [Ideal.addf_def, matmul_plain_zero, rowMatBroadcastTo_apply]
  rfl

/-- The host's dense layer before its nonlinearity, at (p, q): Σ_k x(p, k) · W(k, q) + b(q). -/
theorem denseH_apply (x : FVec Ideal ⟨2, ![R, K]⟩ .f32) (W : FVec Ideal ⟨2, ![K, N]⟩ .f32) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (q : Fin N) :
    addf (Host.dotGeneral (DotDims.plain R K N) none x W) (broadcastInDim ⟨2, ![R, N]⟩ ![0, 1] h2 (broadcastInDim ⟨2, ![1, N]⟩ ![1] h1 b)) (ix2 p q)
      = (∑ k : Fin K, (x (ix2 p k) : EReal) * (W (ix2 k q) : EReal)) + (b (ix1 q) : EReal) := by
  show FloatOps.addf (Host.dotGeneral (DotDims.plain R K N) none x W (ix2 p q))
      (broadcastInDim ⟨2, ![R, N]⟩ ![0, 1] h2 (broadcastInDim ⟨2, ![1, N]⟩ ![1] h1 b) (ix2 p q)) = _
  rw [Ideal.addf_def, rowBroadcastInDim_apply]
  simp only [Host.dotGeneral]
  rw [dotGeneral_plain]
  rfl

/-- The kernel's `max(x, 0)`, entry by entry. -/
theorem reluK_apply {S : Shape} (x : FVec Ideal S .f32) (j : S.Idx) :
    maximumf x (broadcast S (Scalar.ofBits (F := Ideal) .f32 0x00000000#32)) j = max (x j : EReal) 0 := by
  show FloatOps.maximumf (x j) (FloatOps.ofBits (F := Ideal) .f32 0x00000000#32) = _
  rw [Ideal.maximumf_def, zero_word]

/-- The host's `max(x, 0)`, entry by entry. -/
theorem reluH_apply {S : Shape} (x : FVec Ideal S .f32) (h0 : (⟨0, ![]⟩ : Shape).BroadcastsInDim S (![] : Fin 0 → Fin S.rank)) (j : S.Idx) :
    maximumf x (broadcastInDim S ![] h0 (constant ⟨0, ![]⟩ .f32 0x00000000#32)) j = max (x j : EReal) 0 := by
  have e : broadcastInDim S ![] h0 (constant (F := Ideal) ⟨0, ![]⟩ .f32 0x00000000#32) j = FloatOps.ofBits (F := Ideal) .f32 0x00000000#32 :=
    broadcastInDim_apply _ h0 _ j (fun a => a.elim0) (fun a => a.elim0)
  show FloatOps.maximumf (x j) (broadcastInDim S ![] h0 (constant ⟨0, ![]⟩ .f32 0x00000000#32) j) = _
  rw [e, Ideal.maximumf_def, zero_word]

/-! ## Two row blocks joined along the columns -/

variable {A B C : Nat}

/-- Left of the seam the join reads its first piece. -/
theorem cat2_left {α : Type} (x : (⟨2, ![R, A]⟩ : Shape).Idx → α) (y : (⟨2, ![R, B]⟩ : Shape).Idx → α)
    (h : Shape.Concatenates [⟨2, ![R, A]⟩, ⟨2, ![R, B]⟩] ⟨2, ![R, C]⟩ 1) (p : Fin R) (k : Fin C) (hk : k.val < A) :
    concatenate ⟨2, ![R, C]⟩ 1 [⟨⟨2, ![R, A]⟩, x⟩, ⟨⟨2, ![R, B]⟩, y⟩] h (ix2 p k) = x (ix2 p ⟨k.val, hk⟩) :=
  concatenate_pair_apply_left 1 x y h (ix2 p k) rfl (ix2 p ⟨k.val, hk⟩) (fun b => by
    match b with
    | ⟨0, _⟩ => rfl
    | ⟨1, _⟩ => rfl)

/-- Right of the seam it reads its second piece, the column counted from the seam. -/
theorem cat2_right {α : Type} (x : (⟨2, ![R, A]⟩ : Shape).Idx → α) (y : (⟨2, ![R, B]⟩ : Shape).Idx → α)
    (h : Shape.Concatenates [⟨2, ![R, A]⟩, ⟨2, ![R, B]⟩] ⟨2, ![R, C]⟩ 1) (p : Fin R) (k : Fin C) (hk : A ≤ k.val) (hk' : k.val - A < B) :
    concatenate ⟨2, ![R, C]⟩ 1 [⟨⟨2, ![R, A]⟩, x⟩, ⟨⟨2, ![R, B]⟩, y⟩] h (ix2 p k) = y (ix2 p ⟨k.val - A, hk'⟩) :=
  concatenate_pair_apply_right 1 x y h (ix2 p k) rfl rfl (ix2 p ⟨k.val - A, hk'⟩) (fun b hb => by
    match b with
    | ⟨0, _⟩ => rfl
    | ⟨1, _⟩ => exact absurd rfl hb) (by show k.val - A + A = k.val; omega)

/-- A vector recast as a one-row matrix reads, at (0, q), the vector at q. -/
theorem rowCast_apply {α : Type} {C : Nat} (v : (⟨1, ![C]⟩ : Shape).Idx → α) (h1 : (⟨1, ![C]⟩ : Shape).ShapeCasts ⟨2, ![1, C]⟩) (q : Fin C) :
    shapeCast ⟨2, ![1, C]⟩ v h1 (ix2 (0 : Fin 1) q) = v (ix1 q) :=
  shapeCast_apply v h1 (ix2 (0 : Fin 1) q) (ix1 q) (by
    rw [Shape.rowMajor_val_one, Shape.rowMajor_val_two]
    show q.val = (0 : Nat) * C + q.val
    omega)

/-! ## One row through a layer, in both spellings -/

variable {RK RR : Nat}

/-- If row p of the kernel's input is row r of the host's (and the weights and biases agree), row p of the kernel's
    dense layer with `max(·, 0)` is row r of the host's. -/
theorem dense_relu_row {φ₁ φ₂ : FTy} (xK : FVec Ideal ⟨2, ![RK, K]⟩ φ₁) (xR : FVec Ideal ⟨2, ![RR, K]⟩ .f32)
    (WK : FVec Ideal ⟨2, ![K, N]⟩ φ₂) (WR : FVec Ideal ⟨2, ![K, N]⟩ .f32) (bK : FVec Ideal ⟨2, ![1, N]⟩ .f32) (bR : FVec Ideal ⟨1, ![N]⟩ .f32)
    (hb : (⟨2, ![1, N]⟩ : Shape).Broadcasts ⟨2, ![RK, N]⟩)
    (h1 : (⟨1, ![N]⟩ : Shape).BroadcastsInDim ⟨2, ![1, N]⟩ ![1]) (h2 : (⟨2, ![1, N]⟩ : Shape).BroadcastsInDim ⟨2, ![RR, N]⟩ ![0, 1])
    (h0 : (⟨0, ![]⟩ : Shape).BroadcastsInDim ⟨2, ![RR, N]⟩ (![] : Fin 0 → Fin 2))
    (p : Fin RK) (r : Fin RR)
    (hx : ∀ k, (xK (ix2 p k) : EReal) = xR (ix2 r k)) (hW : ∀ k q, (WK (ix2 k q) : EReal) = WR (ix2 k q))
    (hbias : ∀ q, (bK (ix2 (0 : Fin 1) q) : EReal) = bR (ix1 q)) (q : Fin N) :
    maximumf (addf (FloatOps.matmul (DotDims.plain RK K N) none xK WK (constant ⟨2, ![RK, N]⟩ .f32 0x00000000#32)) (broadcastTo ⟨2, ![RK, N]⟩ bK hb))
        (broadcast ⟨2, ![RK, N]⟩ (Scalar.ofBits (F := Ideal) .f32 0x00000000#32)) (ix2 p q)
      = maximumf (addf (Host.dotGeneral (DotDims.plain RR K N) none xR WR) (broadcastInDim ⟨2, ![RR, N]⟩ ![0, 1] h2 (broadcastInDim ⟨2, ![1, N]⟩ ![1] h1 bR)))
        (broadcastInDim ⟨2, ![RR, N]⟩ ![] h0 (constant ⟨0, ![]⟩ .f32 0x00000000#32)) (ix2 r q) := by
  rw [reluK_apply, reluH_apply, denseK_apply, denseH_apply, hbias q]
  congr 2
  exact Finset.sum_congr rfl fun k _ => by rw [hx k, hW k q]

/-- The same without the nonlinearity (the output layer). -/
theorem dense_row {φ₁ φ₂ : FTy} (xK : FVec Ideal ⟨2, ![RK, K]⟩ φ₁) (xR : FVec Ideal ⟨2, ![RR, K]⟩ .f32)
    (WK : FVec Ideal ⟨2, ![K, N]⟩ φ₂) (WR : FVec Ideal ⟨2, ![K, N]⟩ .f32) (bK : FVec Ideal ⟨2, ![1, N]⟩ .f32) (bR : FVec Ideal ⟨1, ![N]⟩ .f32)
    (hb : (⟨2, ![1, N]⟩ : Shape).Broadcasts ⟨2, ![RK, N]⟩)
    (h1 : (⟨1, ![N]⟩ : Shape).BroadcastsInDim ⟨2, ![1, N]⟩ ![1]) (h2 : (⟨2, ![1, N]⟩ : Shape).BroadcastsInDim ⟨2, ![RR, N]⟩ ![0, 1])
    (p : Fin RK) (r : Fin RR)
    (hx : ∀ k, (xK (ix2 p k) : EReal) = xR (ix2 r k)) (hW : ∀ k q, (WK (ix2 k q) : EReal) = WR (ix2 k q))
    (hbias : ∀ q, (bK (ix2 (0 : Fin 1) q) : EReal) = bR (ix1 q)) (q : Fin N) :
    addf (FloatOps.matmul (DotDims.plain RK K N) none xK WK (constant ⟨2, ![RK, N]⟩ .f32 0x00000000#32)) (broadcastTo ⟨2, ![RK, N]⟩ bK hb) (ix2 p q)
      = addf (Host.dotGeneral (DotDims.plain RR K N) none xR WR) (broadcastInDim ⟨2, ![RR, N]⟩ ![0, 1] h2 (broadcastInDim ⟨2, ![1, N]⟩ ![1] h1 bR)) (ix2 r q) := by
  rw [denseK_apply, denseH_apply, hbias q]
  congr 1
  exact Finset.sum_congr rfl fun k _ => by rw [hx k, hW k q]

/-- Two joins whose pieces agree on a row agree on that row. -/
theorem cat2_row {α : Type} (xK : (⟨2, ![RK, A]⟩ : Shape).Idx → α) (yK : (⟨2, ![RK, B]⟩ : Shape).Idx → α)
    (xR : (⟨2, ![RR, A]⟩ : Shape).Idx → α) (yR : (⟨2, ![RR, B]⟩ : Shape).Idx → α)
    (hK : Shape.Concatenates [⟨2, ![RK, A]⟩, ⟨2, ![RK, B]⟩] ⟨2, ![RK, C]⟩ 1) (hR : Shape.Concatenates [⟨2, ![RR, A]⟩, ⟨2, ![RR, B]⟩] ⟨2, ![RR, C]⟩ 1)
    (hAB : A + B = C) (p : Fin RK) (r : Fin RR)
    (hx : ∀ k, xK (ix2 p k) = xR (ix2 r k)) (hy : ∀ k, yK (ix2 p k) = yR (ix2 r k)) (k : Fin C) :
    concatenate ⟨2, ![RK, C]⟩ 1 [⟨⟨2, ![RK, A]⟩, xK⟩, ⟨⟨2, ![RK, B]⟩, yK⟩] hK (ix2 p k)
      = concatenate ⟨2, ![RR, C]⟩ 1 [⟨⟨2, ![RR, A]⟩, xR⟩, ⟨⟨2, ![RR, B]⟩, yR⟩] hR (ix2 r k) := by
  by_cases hk : k.val < A
  · rw [cat2_left xK yK hK p k hk, cat2_left xR yR hR r k hk]; exact hx _
  · have hk1 : A ≤ k.val := Nat.le_of_not_lt hk
    have hk2 : k.val - A < B := by have := k.isLt; omega
    rw [cat2_right xK yK hK p k hk1 hk2, cat2_right xR yR hR r k hk1 hk2]; exact hy _

/-! ## Four width-8 pieces joined along the columns -/

/-- Of four width-8 pieces joined along the columns, column 8·0 + k is piece 0's column k. -/
theorem cat4_piece0 {α : Type} (x0 x1 x2 x3 : (⟨2, ![R, 8]⟩ : Shape).Idx → α)
    (h : Shape.Concatenates [⟨2, ![R, 8]⟩, ⟨2, ![R, 8]⟩, ⟨2, ![R, 8]⟩, ⟨2, ![R, 8]⟩] ⟨2, ![R, 32]⟩ 1) (p : Fin R) (c : Fin 32) (k : Fin 8) (hc : c.val = 0 + k.val) :
    concatenate ⟨2, ![R, 32]⟩ 1 [⟨⟨2, ![R, 8]⟩, x0⟩, ⟨⟨2, ![R, 8]⟩, x1⟩, ⟨⟨2, ![R, 8]⟩, x2⟩, ⟨⟨2, ![R, 8]⟩, x3⟩] h (ix2 p c) = x0 (ix2 p k) :=
  concatenate_apply_piece 1 ([⟨⟨2, ![R, 8]⟩, x0⟩, ⟨⟨2, ![R, 8]⟩, x1⟩, ⟨⟨2, ![R, 8]⟩, x2⟩, ⟨⟨2, ![R, 8]⟩, x3⟩] : List ((s : Shape) × (s.Idx → α))) h (ix2 p c) 0
    (by show (0 : Nat) < 4; omega) ⟨2, ![R, 8]⟩ x0 rfl rfl 0 rfl (ix2 p k) (fun b hb => by
    match b with
    | ⟨0, _⟩ => rfl
    | ⟨1, _⟩ => exact absurd rfl hb) (by show 0 + k.val = c.val; omega)

/-- Of four width-8 pieces joined along the columns, column 8·1 + k is piece 1's column k. -/
theorem cat4_piece1 {α : Type} (x0 x1 x2 x3 : (⟨2, ![R, 8]⟩ : Shape).Idx → α)
    (h : Shape.Concatenates [⟨2, ![R, 8]⟩, ⟨2, ![R, 8]⟩, ⟨2, ![R, 8]⟩, ⟨2, ![R, 8]⟩] ⟨2, ![R, 32]⟩ 1) (p : Fin R) (c : Fin 32) (k : Fin 8) (hc : c.val = 8 + k.val) :
    concatenate ⟨2, ![R, 32]⟩ 1 [⟨⟨2, ![R, 8]⟩, x0⟩, ⟨⟨2, ![R, 8]⟩, x1⟩, ⟨⟨2, ![R, 8]⟩, x2⟩, ⟨⟨2, ![R, 8]⟩, x3⟩] h (ix2 p c) = x1 (ix2 p k) :=
  concatenate_apply_piece 1 ([⟨⟨2, ![R, 8]⟩, x0⟩, ⟨⟨2, ![R, 8]⟩, x1⟩, ⟨⟨2, ![R, 8]⟩, x2⟩, ⟨⟨2, ![R, 8]⟩, x3⟩] : List ((s : Shape) × (s.Idx → α))) h (ix2 p c) 1
    (by show (1 : Nat) < 4; omega) ⟨2, ![R, 8]⟩ x1 rfl rfl 8 rfl (ix2 p k) (fun b hb => by
    match b with
    | ⟨0, _⟩ => rfl
    | ⟨1, _⟩ => exact absurd rfl hb) (by show 8 + k.val = c.val; omega)

/-- Of four width-8 pieces joined along the columns, column 8·2 + k is piece 2's column k. -/
theorem cat4_piece2 {α : Type} (x0 x1 x2 x3 : (⟨2, ![R, 8]⟩ : Shape).Idx → α)
    (h : Shape.Concatenates [⟨2, ![R, 8]⟩, ⟨2, ![R, 8]⟩, ⟨2, ![R, 8]⟩, ⟨2, ![R, 8]⟩] ⟨2, ![R, 32]⟩ 1) (p : Fin R) (c : Fin 32) (k : Fin 8) (hc : c.val = 16 + k.val) :
    concatenate ⟨2, ![R, 32]⟩ 1 [⟨⟨2, ![R, 8]⟩, x0⟩, ⟨⟨2, ![R, 8]⟩, x1⟩, ⟨⟨2, ![R, 8]⟩, x2⟩, ⟨⟨2, ![R, 8]⟩, x3⟩] h (ix2 p c) = x2 (ix2 p k) :=
  concatenate_apply_piece 1 ([⟨⟨2, ![R, 8]⟩, x0⟩, ⟨⟨2, ![R, 8]⟩, x1⟩, ⟨⟨2, ![R, 8]⟩, x2⟩, ⟨⟨2, ![R, 8]⟩, x3⟩] : List ((s : Shape) × (s.Idx → α))) h (ix2 p c) 2
    (by show (2 : Nat) < 4; omega) ⟨2, ![R, 8]⟩ x2 rfl rfl 16 rfl (ix2 p k) (fun b hb => by
    match b with
    | ⟨0, _⟩ => rfl
    | ⟨1, _⟩ => exact absurd rfl hb) (by show 16 + k.val = c.val; omega)

/-- Of four width-8 pieces joined along the columns, column 8·3 + k is piece 3's column k. -/
theorem cat4_piece3 {α : Type} (x0 x1 x2 x3 : (⟨2, ![R, 8]⟩ : Shape).Idx → α)
    (h : Shape.Concatenates [⟨2, ![R, 8]⟩, ⟨2, ![R, 8]⟩, ⟨2, ![R, 8]⟩, ⟨2, ![R, 8]⟩] ⟨2, ![R, 32]⟩ 1) (p : Fin R) (c : Fin 32) (k : Fin 8) (hc : c.val = 24 + k.val) :
    concatenate ⟨2, ![R, 32]⟩ 1 [⟨⟨2, ![R, 8]⟩, x0⟩, ⟨⟨2, ![R, 8]⟩, x1⟩, ⟨⟨2, ![R, 8]⟩, x2⟩, ⟨⟨2, ![R, 8]⟩, x3⟩] h (ix2 p c) = x3 (ix2 p k) :=
  concatenate_apply_piece 1 ([⟨⟨2, ![R, 8]⟩, x0⟩, ⟨⟨2, ![R, 8]⟩, x1⟩, ⟨⟨2, ![R, 8]⟩, x2⟩, ⟨⟨2, ![R, 8]⟩, x3⟩] : List ((s : Shape) × (s.Idx → α))) h (ix2 p c) 3
    (by show (3 : Nat) < 4; omega) ⟨2, ![R, 8]⟩ x3 rfl rfl 24 rfl (ix2 p k) (fun b hb => by
    match b with
    | ⟨0, _⟩ => rfl
    | ⟨1, _⟩ => exact absurd rfl hb) (by show 24 + k.val = c.val; omega)

end Cert.Layers

end
-- ==== Proof.KernelValue.lean ====
/-
  What the kernel's result array holds after the run, at the extended reals: the reference's own result term of the
  argument arrays.

  The body computes, from its loaded blocks, three dense layers with `max(·, 0)` on the first sixteen columns of the
  packed block, the elementwise product of its last two groups of eight columns, their join, and the output layer.
  Every one of these stages is row-wise: row p of a stage depends on row p of the packed block and on the weights
  only.  Row p of point t's packed block is row r = 8192·t + p of the packed array, whose four groups of columns are the
  four gathered arrays; so, stage by stage, row p of the kernel's stage is row r of the reference's — the products
  and sums are the same finite sums, a change of float format is the identity, and the two spellings of the bias read
  the same entry.  Point t therefore writes back block t of the reference's result term; the 128 blocks tile the
  result's rows, so the array ends holding that term.
-/
import proofs.«102874_j50835232916081_1_alg».proof.Proof.Entry
import proofs.«102874_j50835232916081_1_alg».proof.Proof.Layers
import proofs.«102874_j50835232916081_1_alg».proof.Proof.Gen.ReferenceIdeal.Read

set_option maxRecDepth 16384

noncomputable section

namespace Cert.KernelIdeal.Val

open Cert.KernelIdeal Cert.KernelIdeal.Gen Cert.KernelIdeal.Frm Cert.KernelIdeal.Entry
open Idealize.ShloMosaic Idealize.ShloMosaic.TcCoe Idealize.ShloMosaic.ValueIdx Idealize.SL.Sem

/-! ## The body's stages, named -/

section Stages

variable (y0 : Vec Ideal S8192x32 .f32) (y1 : Vec Ideal S16x32 .f32) (y2 : Vec Ideal S1x32 .f32) (y3 : Vec Ideal S32x16 .f32)
  (y4 : Vec Ideal S1x16 .f32) (y5 : Vec Ideal S16x8 .f32) (y6 : Vec Ideal S1x8 .f32) (y7 : Vec Ideal S16x1 .f32) (y8 : Vec Ideal S1x1 .f32)

/-- The packed block as loaded. -/
def sIn : FVec Ideal S8192x32 .f32 := shapeCast S8192x32 y0 shapeCasts_S8192x32_S8192x32
/-- The MLP tower's input: the packed block's first sixteen columns. -/
def sH0 : FVec Ideal S8192x16 .f32 := extractStridedSlice S8192x16 ![0, 0] (sIn y0) slices_S8192x32_o0_0_S8192x16
/-- The two GMF groups: columns 16…23 and columns 24…31. -/
def sA : FVec Ideal S8192x8 .f32 := extractStridedSlice S8192x8 ![0, 16] (sIn y0) slices_S8192x32_o0_16_S8192x8
def sB : FVec Ideal S8192x8 .f32 := extractStridedSlice S8192x8 ![0, 24] (sIn y0) slices_S8192x32_o0_24_S8192x8
/-- The GMF branch: their elementwise product. -/
def sMf : FVec Ideal S8192x8 .f32 := mulf (sA y0) (sB y0)
/-- The three hidden layers. -/
def sH1 : FVec Ideal S8192x32 .f32 :=
  maximumf (addf (matmul dot_S8192x16_S16x32_S8192x32_1_0_0_1_n_n none (truncf .bf16 (sH0 y0) bitsLt_bf16_f32) (truncf .bf16 y1 bitsLt_bf16_f32) (constant S8192x32 .f32 0x00000000#32))
      (broadcastTo S8192x32 (shapeCast S1x32 y2 shapeCasts_S1x32_S1x32) broadcasts_S1x32_S8192x32))
    (broadcast S8192x32 (Scalar.ofBits (F := Ideal) .f32 0x00000000#32))
def sH2 : FVec Ideal S8192x16 .f32 :=
  maximumf (addf (matmul dot_S8192x32_S32x16_S8192x16_1_0_0_1_n_n none (truncf .bf16 (sH1 y0 y1 y2) bitsLt_bf16_f32) (truncf .bf16 y3 bitsLt_bf16_f32) (constant S8192x16 .f32 0x00000000#32))
      (broadcastTo S8192x16 (shapeCast S1x16 y4 shapeCasts_S1x16_S1x16) broadcasts_S1x16_S8192x16))
    (broadcast S8192x16 (Scalar.ofBits (F := Ideal) .f32 0x00000000#32))
def sH3 : FVec Ideal S8192x8 .f32 :=
  maximumf (addf (matmul dot_S8192x16_S16x8_S8192x8_1_0_0_1_n_n none (truncf .bf16 (sH2 y0 y1 y2 y3 y4) bitsLt_bf16_f32) (truncf .bf16 y5 bitsLt_bf16_f32) (constant S8192x8 .f32 0x00000000#32))
      (broadcastTo S8192x8 (shapeCast S1x8 y6 shapeCasts_S1x8_S1x8) broadcasts_S1x8_S8192x8))
    (broadcast S8192x8 (Scalar.ofBits (F := Ideal) .f32 0x00000000#32))
/-- The fusion: the tower's output beside the GMF branch. -/
def sV : FVec Ideal S8192x16 .f32 :=
  concatenate S8192x16 1 [⟨S8192x8, sH3 y0 y1 y2 y3 y4 y5 y6⟩, ⟨S8192x8, sMf y0⟩] concatenates_S8192x8_S8192x8_S8192x16_d1
/-- The output layer. -/
def sOut : FVec Ideal S8192x1 .f32 :=
  addf (matmul dot_S8192x16_S16x1_S8192x1_1_0_0_1_n_n none (truncf .bf16 (sV y0 y1 y2 y3 y4 y5 y6) bitsLt_bf16_f32) (truncf .bf16 y7 bitsLt_bf16_f32) (constant S8192x1 .f32 0x00000000#32))
    (broadcastTo S8192x1 (shapeCast S1x1 y8 shapeCasts_S1x1_S1x1) broadcasts_S1x1_S8192x1)

/-- The body's stored value is the last stage. -/
theorem pay_eq : k0_pay1 (k0_pay2 y0 y1 y2 y3 y4 y5 y6) y7 y8 = sOut y0 y1 y2 y3 y4 y5 y6 y7 y8 := rfl

end Stages

/-! ## One row, stage by stage -/

section Row

variable (y0 : Vec Ideal S8192x32 .f32) (y1 : Vec Ideal S16x32 .f32) (y2 : Vec Ideal S1x32 .f32) (y3 : Vec Ideal S32x16 .f32)
  (y4 : Vec Ideal S1x16 .f32) (y5 : Vec Ideal S16x8 .f32) (y6 : Vec Ideal S1x8 .f32) (y7 : Vec Ideal S16x1 .f32) (y8 : Vec Ideal S1x1 .f32)
variable (x0 x1 : (⟨S1048576, .i32⟩ : BufTy).Contents (Elt Ideal)) (x2 x3 x4 x5 : (⟨S1000000x8, .f32⟩ : BufTy).Contents (Elt Ideal))
  (x7 : (⟨S32, .f32⟩ : BufTy).Contents (Elt Ideal)) (x9 : (⟨S16, .f32⟩ : BufTy).Contents (Elt Ideal))
  (x11 : (⟨S8, .f32⟩ : BufTy).Contents (Elt Ideal)) (x13 : (⟨S1, .f32⟩ : BufTy).Contents (Elt Ideal))
variable (p : Fin 8192) (r : Fin 1048576)

/-- The packed array: the four gathered arrays side by side. -/
def packed : FVec Ideal S1048576x32 .f32 :=
  concatenate S1048576x32 1 [⟨S1048576x8, rows x2 x0⟩, ⟨S1048576x8, rows x3 x1⟩, ⟨S1048576x8, rows x4 x0⟩, ⟨S1048576x8, rows x5 x1⟩]
    concatenates_S1048576x8_S1048576x8_S1048576x8_S1048576x8_S1048576x32_d1

/-- The gathered arrays are the reference's, which wraps and gathers the same way. -/
theorem rows_v6 : rows x2 x0 = Cert.ReferenceIdeal.Read.val_main_v6 (F := Ideal) x0 x2 := rfl
theorem rows_v13 : rows x3 x1 = Cert.ReferenceIdeal.Read.val_main_v13 (F := Ideal) x1 x3 := rfl
theorem rows_v20 : rows x4 x0 = Cert.ReferenceIdeal.Read.val_main_v20 (F := Ideal) x0 x4 := rfl
theorem rows_v27 : rows x5 x1 = Cert.ReferenceIdeal.Read.val_main_v27 (F := Ideal) x1 x5 := rfl

/-- The loaded block is the block. -/
theorem sIn_apply (j : S8192x32.Idx) : sIn y0 j = y0 j := congrFun (shapeCast_self y0 _) j

/-- A column slice of the block reads the block at the shifted column. -/
theorem slice16_apply (k : Fin 16) (k' : Fin 32) (hk : k'.val = k.val) : sH0 y0 (ix2 p k) = y0 (ix2 p k') := by
  rw [← sIn_apply y0 (ix2 p k')]
  unfold sH0
  refine extractStridedSlice_apply _ _ _ (ix2 p k) (ix2 p k') fun a => ?_
  match a with
  | ⟨0, _⟩ => show p.val = 0 + p.val; omega
  | ⟨1, _⟩ => show k'.val = 0 + k.val; omega
theorem sliceA_apply (k : Fin 8) (k' : Fin 32) (hk : k'.val = 16 + k.val) : sA y0 (ix2 p k) = y0 (ix2 p k') := by
  rw [← sIn_apply y0 (ix2 p k')]
  unfold sA
  refine extractStridedSlice_apply _ _ _ (ix2 p k) (ix2 p k') fun a => ?_
  match a with
  | ⟨0, _⟩ => show p.val = 0 + p.val; omega
  | ⟨1, _⟩ => show k'.val = 16 + k.val; omega
theorem sliceB_apply (k : Fin 8) (k' : Fin 32) (hk : k'.val = 24 + k.val) : sB y0 (ix2 p k) = y0 (ix2 p k') := by
  rw [← sIn_apply y0 (ix2 p k')]
  unfold sB
  refine extractStridedSlice_apply _ _ _ (ix2 p k) (ix2 p k') fun a => ?_
  match a with
  | ⟨0, _⟩ => show p.val = 0 + p.val; omega
  | ⟨1, _⟩ => show k'.val = 24 + k.val; omega

variable (hp : ∀ k : Fin 32, y0 (ix2 p k) = packed x0 x1 x2 x3 x4 x5 (ix2 r k))
include hp

/-- Row p of the tower's input is row r of the reference's join of the two MLP gathers. -/
theorem h0_row (k : Fin 16) : sH0 y0 (ix2 p k) = Cert.ReferenceIdeal.Read.val_main_v29 (F := Ideal) x0 x1 x2 x3 (ix2 r k) := by
  rw [slice16_apply y0 p k ⟨k.val, by have := k.isLt; omega⟩ rfl, hp]
  unfold packed Cert.ReferenceIdeal.Read.val_main_v29
  by_cases hk : k.val < 8
  · rw [Cert.Layers.cat4_piece0 (R := 1048576) (rows x2 x0) (rows x3 x1) (rows x4 x0) (rows x5 x1) _ r _ ⟨k.val, hk⟩ (by show k.val = 0 + k.val; omega),
      Cert.Layers.cat2_left (R := 1048576) (A := 8) (B := 8) (C := 16) _ _ _ r k hk, rows_v6]
  · have hk1 : 8 ≤ k.val := Nat.le_of_not_lt hk
    have hk2 : k.val - 8 < 8 := by have := k.isLt; omega
    rw [Cert.Layers.cat4_piece1 (R := 1048576) (rows x2 x0) (rows x3 x1) (rows x4 x0) (rows x5 x1) _ r _ ⟨k.val - 8, hk2⟩ (by show k.val = 8 + (k.val - 8); omega),
      Cert.Layers.cat2_right (R := 1048576) (A := 8) (B := 8) (C := 16) _ _ _ r k hk1 hk2, rows_v13]

/-- Row p of the GMF branch is row r of the reference's product of the two GMF gathers. -/
theorem mf_row (k : Fin 8) : sMf y0 (ix2 p k) = Cert.ReferenceIdeal.Read.val_main_v28 (F := Ideal) x0 x1 x4 x5 (ix2 r k) := by
  show FloatOps.mulf (sA y0 (ix2 p k)) (sB y0 (ix2 p k)) = _
  rw [sliceA_apply y0 p k ⟨16 + k.val, by have := k.isLt; omega⟩ rfl, sliceB_apply y0 p k ⟨24 + k.val, by have := k.isLt; omega⟩ rfl,
    hp, hp, Cert.ReferenceIdeal.Read.val_main_v28_apply]
  unfold packed
  rw [Cert.Layers.cat4_piece2 (R := 1048576) (rows x2 x0) (rows x3 x1) (rows x4 x0) (rows x5 x1) _ r _ k rfl,
    Cert.Layers.cat4_piece3 (R := 1048576) (rows x2 x0) (rows x3 x1) (rows x4 x0) (rows x5 x1) _ r _ k rfl,
    rows_v20, rows_v27]

variable (hb0 : ∀ q : Fin 32, y2 (ix2 (0 : Fin 1) q) = x7 (ix1 q)) (hb1 : ∀ q : Fin 16, y4 (ix2 (0 : Fin 1) q) = x9 (ix1 q))
  (hb2 : ∀ q : Fin 8, y6 (ix2 (0 : Fin 1) q) = x11 (ix1 q)) (hbo : ∀ q : Fin 1, y8 (ix2 (0 : Fin 1) q) = x13 (ix1 q))

include hb0 in
/-- Row p of the first hidden layer is row r of the reference's. -/
theorem h1_row (q : Fin 32) : sH1 y0 y1 y2 (ix2 p q) = Cert.ReferenceIdeal.Read.val_main_v34 (F := Ideal) x0 x1 x2 x3 y1 x7 (ix2 r q) :=
  Cert.Layers.dense_relu_row (RK := 8192) (RR := 1048576) (K := 16) (N := 32) (truncf .bf16 (sH0 y0) bitsLt_bf16_f32) (Cert.ReferenceIdeal.Read.val_main_v29 (F := Ideal) x0 x1 x2 x3)
    (truncf .bf16 y1 bitsLt_bf16_f32) y1 (shapeCast S1x32 y2 shapeCasts_S1x32_S1x32) x7 _ _ _ _ p r
    (h0_row y0 x0 x1 x2 x3 x4 x5 p r hp) (fun _ _ => rfl) (fun q => (congrFun (shapeCast_self y2 _) _).trans (hb0 q)) q

include hb0 hb1 in
theorem h2_row (q : Fin 16) : sH2 y0 y1 y2 y3 y4 (ix2 p q) = Cert.ReferenceIdeal.Read.val_main_v39 (F := Ideal) x0 x1 x2 x3 y1 x7 y3 x9 (ix2 r q) :=
  Cert.Layers.dense_relu_row (RK := 8192) (RR := 1048576) (K := 32) (N := 16) (truncf .bf16 (sH1 y0 y1 y2) bitsLt_bf16_f32) (Cert.ReferenceIdeal.Read.val_main_v34 (F := Ideal) x0 x1 x2 x3 y1 x7)
    (truncf .bf16 y3 bitsLt_bf16_f32) y3 (shapeCast S1x16 y4 shapeCasts_S1x16_S1x16) x9 _ _ _ _ p r
    (h1_row y0 y1 y2 x0 x1 x2 x3 x4 x5 x7 p r hp hb0) (fun _ _ => rfl) (fun q => (congrFun (shapeCast_self y4 _) _).trans (hb1 q)) q

include hb0 hb1 hb2 in
theorem h3_row (q : Fin 8) : sH3 y0 y1 y2 y3 y4 y5 y6 (ix2 p q) = Cert.ReferenceIdeal.Read.val_main_v44 (F := Ideal) x0 x1 x2 x3 y1 x7 y3 x9 y5 x11 (ix2 r q) :=
  Cert.Layers.dense_relu_row (RK := 8192) (RR := 1048576) (K := 16) (N := 8) (truncf .bf16 (sH2 y0 y1 y2 y3 y4) bitsLt_bf16_f32) (Cert.ReferenceIdeal.Read.val_main_v39 (F := Ideal) x0 x1 x2 x3 y1 x7 y3 x9)
    (truncf .bf16 y5 bitsLt_bf16_f32) y5 (shapeCast S1x8 y6 shapeCasts_S1x8_S1x8) x11 _ _ _ _ p r
    (h2_row y0 y1 y2 y3 y4 x0 x1 x2 x3 x4 x5 x7 x9 p r hp hb0 hb1) (fun _ _ => rfl) (fun q => (congrFun (shapeCast_self y6 _) _).trans (hb2 q)) q

include hb0 hb1 hb2 in
/-- Row p of the fusion is row r of the reference's. -/
theorem v_row (k : Fin 16) : sV y0 y1 y2 y3 y4 y5 y6 (ix2 p k) = Cert.ReferenceIdeal.Read.val_main_v45 (F := Ideal) x0 x1 x2 x3 x4 x5 y1 x7 y3 x9 y5 x11 (ix2 r k) :=
  Cert.Layers.cat2_row (RK := 8192) (RR := 1048576) (A := 8) (B := 8) (C := 16) (sH3 y0 y1 y2 y3 y4 y5 y6) (sMf y0)
    (Cert.ReferenceIdeal.Read.val_main_v44 (F := Ideal) x0 x1 x2 x3 y1 x7 y3 x9 y5 x11) (Cert.ReferenceIdeal.Read.val_main_v28 (F := Ideal) x0 x1 x4 x5) _ _ rfl p r
    (h3_row y0 y1 y2 y3 y4 y5 y6 x0 x1 x2 x3 x4 x5 x7 x9 x11 p r hp hb0 hb1 hb2) (mf_row y0 x0 x1 x2 x3 x4 x5 p r hp) k

include hb0 hb1 hb2 hbo in
/-- Row p of the body's stored value is row r of the reference's result term. -/
theorem out_row (q : Fin 1) : sOut y0 y1 y2 y3 y4 y5 y6 y7 y8 (ix2 p q) = Cert.ReferenceIdeal.Read.val_main_v49 (F := Ideal) x0 x1 x2 x3 x4 x5 y1 x7 y3 x9 y5 x11 y7 x13 (ix2 r q) :=
  Cert.Layers.dense_row (RK := 8192) (RR := 1048576) (K := 16) (N := 1) (truncf .bf16 (sV y0 y1 y2 y3 y4 y5 y6) bitsLt_bf16_f32) (Cert.ReferenceIdeal.Read.val_main_v45 (F := Ideal) x0 x1 x2 x3 x4 x5 y1 x7 y3 x9 y5 x11)
    (truncf .bf16 y7 bitsLt_bf16_f32) y7 (shapeCast S1x1 y8 shapeCasts_S1x1_S1x1) x13 _ _ _ p r
    (v_row y0 y1 y2 y3 y4 y5 y6 x0 x1 x2 x3 x4 x5 x7 x9 x11 p r hp hb0 hb1 hb2) (fun _ _ => rfl) (fun q => (congrFun (shapeCast_self y8 _) _).trans (hbo q)) q

end Row

/-! ## From blocks to the array -/

section Array

variable (m : (ℓ : Loc nD τ sig) → Buf (Elt Ideal) ℓ) (ρ : Dev nD → PrngReg)

/-- The reference's result term of the argument arrays' launch contents. -/
def G (c : Dev nD) : S1048576x1.Idx → Elt Ideal .f32 :=
  Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- The row lemma with the weight blocks named apart from the arrays they are blocks of. -/
theorem out_row_of (y0 : Vec Ideal S8192x32 .f32) (y1 : Vec Ideal S16x32 .f32) (y2 : Vec Ideal S1x32 .f32) (y3 : Vec Ideal S32x16 .f32)
    (y4 : Vec Ideal S1x16 .f32) (y5 : Vec Ideal S16x8 .f32) (y6 : Vec Ideal S1x8 .f32) (y7 : Vec Ideal S16x1 .f32) (y8 : Vec Ideal S1x1 .f32)
    (x0 x1 : (⟨S1048576, .i32⟩ : BufTy).Contents (Elt Ideal)) (x2 x3 x4 x5 : (⟨S1000000x8, .f32⟩ : BufTy).Contents (Elt Ideal))
    (x6 : Vec Ideal S16x32 .f32) (x7 : (⟨S32, .f32⟩ : BufTy).Contents (Elt Ideal)) (x8 : Vec Ideal S32x16 .f32) (x9 : (⟨S16, .f32⟩ : BufTy).Contents (Elt Ideal))
    (x10 : Vec Ideal S16x8 .f32) (x11 : (⟨S8, .f32⟩ : BufTy).Contents (Elt Ideal)) (x12 : Vec Ideal S16x1 .f32) (x13 : (⟨S1, .f32⟩ : BufTy).Contents (Elt Ideal))
    (p : Fin 8192) (r : Fin 1048576)
    (h1 : y1 = x6) (h3 : y3 = x8) (h5 : y5 = x10) (h7 : y7 = x12)
    (hp : ∀ k : Fin 32, y0 (ix2 p k) = packed x0 x1 x2 x3 x4 x5 (ix2 r k))
    (hb0 : ∀ q : Fin 32, y2 (ix2 (0 : Fin 1) q) = x7 (ix1 q)) (hb1 : ∀ q : Fin 16, y4 (ix2 (0 : Fin 1) q) = x9 (ix1 q))
    (hb2 : ∀ q : Fin 8, y6 (ix2 (0 : Fin 1) q) = x11 (ix1 q)) (hbo : ∀ q : Fin 1, y8 (ix2 (0 : Fin 1) q) = x13 (ix1 q)) (q : Fin 1) :
    sOut y0 y1 y2 y3 y4 y5 y6 y7 y8 (ix2 p q) = Cert.ReferenceIdeal.Read.val_main_v49 (F := Ideal) x0 x1 x2 x3 x4 x5 x6 x7 x8 x9 x10 x11 x12 x13 (ix2 r q) := by
  subst h1 h3 h5 h7
  exact out_row y0 y1 y2 y3 y4 y5 y6 y7 y8 x0 x1 x2 x3 x4 x5 x7 x9 x11 x13 p r hp hb0 hb1 hb2 hbo q

theorem hz : (![0, 0] : Fin 2 → Nat) = fun _ => 0 := funext fun a => by fin_cases a <;> rfl

/-- What point t writes back is block t of the reference's result term. -/
theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after_out]
  unfold outBlock
  rw [View.canon_unit_zero hz]
  simp only [View.ld_unit_zero (S := S8192x32) hz, View.ld_unit_zero (S := S16x32) hz, View.ld_unit_zero (S := S1x32) hz, View.ld_unit_zero (S := S32x16) hz, View.ld_unit_zero (S := S1x16) hz, View.ld_unit_zero (S := S16x8) hz, View.ld_unit_zero (S := S1x8) hz, View.ld_unit_zero (S := S16x1) hz, View.ld_unit_zero (S := S1x1) hz]
  rw [pay_eq]
  funext j
  obtain ⟨p, q, rfl⟩ : ∃ (p : Fin 8192) (q : Fin 1), j = ix2 p q := ⟨j 0, j 1, eq_ix2 j⟩
  rw [View.read_apply, oblk_emb]
  unfold G
  refine out_row_of (iblk m c 0 t) (iblk m c 1 t) (iblk m c 2 t) (iblk m c 3 t) (iblk m c 4 t) (iblk m c 5 t) (iblk m c 6 t) (iblk m c 7 t) (iblk m c 8 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) p (rowOf t p) ?_ ?_ ?_ ?_ ?_ ?_ ?_ ?_ ?_ q
  · exact (iblk1_eq m c t).trans (V_main_arg6 m c)
  · exact (iblk3_eq m c t).trans (V_main_arg8 m c)
  · exact (iblk5_eq m c t).trans (V_main_arg10 m c)
  · exact (iblk7_eq m c t).trans (V_main_arg12 m c)
  · intro k
    rw [iblk0_apply, V_packed]
    rfl
  · intro q
    rw [iblk2_eq, V_bias0]
    exact Cert.Layers.rowCast_apply _ _ q
  · intro q
    rw [iblk4_eq, V_bias1]
    exact Cert.Layers.rowCast_apply _ _ q
  · intro q
    rw [iblk6_eq, V_bias2]
    exact Cert.Layers.rowCast_apply _ _ q
  · intro q
    rw [iblk8_eq, V_biaso]
    exact Cert.Layers.rowCast_apply _ _ q

/-- An index of the result is in point t's block iff each coordinate is in the block's range. -/
theorem mem_blk (t : Fin cfg0.N) (i : S1048576x1.Idx) :
    i ∈ ((cfg0.win 9).blk t).view.set ↔ ∀ a : Fin 2, win0_9.index t a * S8192x1.size a ≤ (i a).val ∧ (i a).val < win0_9.index t a * S8192x1.size a + S8192x1.size a := by
  show i ∈ ((View.whole main_v33).slice (win0_9.rect t)).set ↔ _
  rw [View.set_slice_whole, Rect.mem_set_unit]
  exact Iff.rfl

/-- Every row of the result is in the block of the point that is its quotient by 8192. -/
theorem cover (i : S1048576x1.Idx) : ∃ t : Fin cfg0.N, (cfg0.win 9).flush t = true ∧ i ∈ ((cfg0.win 9).blk t).view.set := by
  have hi0 : (i 0).val < 1048576 := (i 0).isLt
  have hi1 : (i 1).val < 1 := (i 1).isLt
  have hN : (i 0).val / 8192 < cfg0.N := by show _ < grid0.N; rw [N_0]; omega
  refine ⟨⟨(i 0).val / 8192, hN⟩, flush0_9 _, ?_⟩
  rw [mem_blk]
  have e0 : win0_9.index ⟨(i 0).val / 8192, hN⟩ (0 : Fin 2) = (i 0).val / 8192 := (idx_facts ⟨(i 0).val / 8192, hN⟩).2.2.1
  have e1 : win0_9.index ⟨(i 0).val / 8192, hN⟩ (1 : Fin 2) = 0 := (idx_facts ⟨(i 0).val / 8192, hN⟩).2.2.2.1
  intro a
  match a with
  | ⟨0, _⟩ =>
    show win0_9.index ⟨(i 0).val / 8192, hN⟩ (0 : Fin 2) * 8192 ≤ (i 0).val ∧ (i 0).val < win0_9.index ⟨(i 0).val / 8192, hN⟩ (0 : Fin 2) * 8192 + 8192
    rw [e0]; omega
  | ⟨1, _⟩ =>
    show win0_9.index ⟨(i 0).val / 8192, hN⟩ (1 : Fin 2) * 1 ≤ (i 1).val ∧ (i 1).val < win0_9.index ⟨(i 0).val / 8192, hN⟩ (1 : Fin 2) * 1 + 1
    rw [e1]; omega

/-- The result array after the run. -/
theorem final (c : Dev nD) : (dats m 0 c).arrAt 9 cfg0.N = G m c :=
  (dats m 0 c).arrAt_eq_of_cover 9 (G m c) (fun t _ => flushed_eq m c t) cover

/-- The run with the result named: every weakly fair execution terminates with the result array at the reference's
    term of the arguments and the arguments unchanged. -/
theorem run : θ_run defs (onTc (τ := τ) (main (F := Ideal))) ⟨m, fun _ => 0, ρ⟩ (fun r => ∀ c : Dev nD,
      r.2.mem ((c.tc : Thread nD τ).loc main_v33) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 9).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 1).trans ((((dats m) 0 c).arrAt_in 1 rfl _).trans ((A_eq m c 1).trans (V_main_arg6 m c))),
      ((h c).2 main_arg7 (Pipeline.mem_restRefs_of main_arg7 (by decide) (by decide))).trans (V_main_arg7 m c),
      ((h c).1 3).trans ((((dats m) 0 c).arrAt_in 3 rfl _).trans ((A_eq m c 3).trans (V_main_arg8 m c))),
      ((h c).2 main_arg9 (Pipeline.mem_restRefs_of main_arg9 (by decide) (by decide))).trans (V_main_arg9 m c),
      ((h c).1 5).trans ((((dats m) 0 c).arrAt_in 5 rfl _).trans ((A_eq m c 5).trans (V_main_arg10 m c))),
      ((h c).2 main_arg11 (Pipeline.mem_restRefs_of main_arg11 (by decide) (by decide))).trans (V_main_arg11 m c),
      ((h c).1 7).trans ((((dats m) 0 c).arrAt_in 7 rfl _).trans ((A_eq m c 7).trans (V_main_arg12 m c))),
      ((h c).2 main_arg13 (Pipeline.mem_restRefs_of main_arg13 (by decide) (by decide))).trans (V_main_arg13 m c)⟩)
    (run_main m ρ)

end Array

end Cert.KernelIdeal.Val

end
-- ==== Proof.lean ====
/-
  The kernel computes, per row of a batch of 1,048,576 (user, item) pairs, a neural matrix-factorisation score: four
  embedding rows are gathered and packed side by side; a three-layer MLP with `max(·, 0)` runs over the first two, the
  other two are multiplied entry by entry, and one output layer reads the join of both branches.  The reference does
  the same with whole-array operations.

  Both programs run to the end and leave their arguments unchanged: the kernel's program by the pipeline's frame run
  (proved once, for any float instance, and read at the word level and at the extended reals), the reference by its
  run.  The idealization rewrote nothing, so it preserves the kernel trivially.  At the extended reals the two results
  are equal entry by entry: the gathers are the same operations on the same arguments, every later stage of the
  kernel's body is row-wise, and row p of grid point t's block is row 8192·t + p of the reference's corresponding
  stage — a matrix product into a zero accumulator and a `dot_general` are the same finite sum, a change of float
  format is the identity, and the kernel's one-row bias matrix and the reference's bias vector read the same entry.
  No law beyond the sums' literal equality is used, so the inputs' finiteness is not needed.
-/
import proofs.«102874_j50835232916081_1_alg».proof.Defs
import proofs.«102874_j50835232916081_1_alg».proof.Proof.Gen.Kernel
import proofs.«102874_j50835232916081_1_alg».proof.Proof.Gen.KernelIdeal
import proofs.«102874_j50835232916081_1_alg».proof.Proof.Gen.ReferenceIdeal
import proofs.«102874_j50835232916081_1_alg».proof.Proof.Gen.Pre_finite_inputs
import proofs.«102874_j50835232916081_1_alg».proof.Proof.Gen.ReferenceIdeal.Run
import proofs.«102874_j50835232916081_1_alg».proof.Proof.Gen.ReferenceIdeal.Read
import proofs.«102874_j50835232916081_1_alg».proof.Proof.FrameBits
import proofs.«102874_j50835232916081_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frm.frame m ρ
theorem frame_ki : Cert.frame_KernelIdeal := fun m ρ _ => Cert.KernelIdeal.Frm.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The kernel's result array ends at the reference's result term of the arguments (the kernel's value), and the
    reference's at the same term of arguments that agree (its run). -/
theorem algebraic : Cert.algebraic_KernelIdeal_ReferenceIdeal := by
  intro m ρ m' ρ' _ hagree
  refine ⟨fun c => Cert.KernelIdeal.Val.G m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13⟩ := hagree c
  rw [e0, e1, e2, e3, e4, e5, e6, e7, e8, e9, e10, e11, e12, e13]
  exact Cert.ReferenceIdeal.Read.val_main_v49_eq (F := Ideal) _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
